-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x512 : Shape := ⟨2, ![11008, 512]⟩
abbrev S32x11008 : Shape := ⟨2, ![32, 11008]⟩
abbrev S11008 : Shape := ⟨1, ![11008]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S32x11008 : S_.BroadcastsInDim S32x11008 (![] : Fin 0 → Fin S32x11008.rank)
  reducesTo_S32x11008_S_d0_1 : S32x11008.ReducesTo [0, 1] S_
  bcast_S_S11008 : S_.BroadcastsInDim S11008 (![] : Fin 0 → Fin S11008.rank)
  reducesTo_S11008_S_d0 : S11008.ReducesTo [0] S_

variable [Facts]

def fn_part1 {F : FTy → Type} [FloatOps F] (main_v13 : IVec S_ 1) (main_v16 : IVec S11008 1) : IVec S_ 1 :=
  let main_c_5 : IVec S_ 1 := constantI S_ 1 1#1
  let main_v17 : IVec S_ 1 := (fun x v => Host.reduce IntOp.andi x v reducesTo_S11008_S_d0 h_S_) main_v16 main_c_5
  let main_v18 : IVec S_ 1 := andi main_v13 main_v17
  main_v18

def fn {F : FTy → Type} [FloatOps F] (main_arg0 : FVec F S4x2048x4096 .f32) (main_arg1 : IVec S11008x512 32) (main_arg2 : FVec F S32x11008 .f32) (main_arg3 : FVec F S32x11008 .f32) (main_arg4 : FVec F S11008 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S32x11008 .f32 := Host.absf main_arg2
  let main_cst_0 : FVec F S_ .f32 := constant S_ .f32 0x7F800000#32
  let main_v5 : FVec F S32x11008 .f32 := broadcastInDim S32x11008 ![] bcast_S_S32x11008 main_cst_0
  let main_v6 : IVec S32x11008 1 := cmpf .olt main_v4 main_v5
  let main_c_1 : IVec S_ 1 := constantI S_ 1 1#1
  let main_v7 : IVec S_ 1 := (fun x v => Host.reduce IntOp.andi x v reducesTo_S32x11008_S_d0_1 h_S_) main_v6 main_c_1
  let main_v8 : IVec S_ 1 := andi main_v3 main_v7
  let main_v9 : FVec F S32x11008 .f32 := Host.absf main_arg3
  let main_cst_2 : FVec F S_ .f32 := constant S_ .f32 0x7F800000#32
  let main_v10 : FVec F S32x11008 .f32 := broadcastInDim S32x11008 ![] bcast_S_S32x11008 main_cst_2
  let main_v11 : IVec S32x11008 1 := cmpf .olt main_v9 main_v10
  let main_c_3 : IVec S_ 1 := constantI S_ 1 1#1
  let main_v12 : IVec S_ 1 := (fun x v => Host.reduce IntOp.andi x v reducesTo_S32x11008_S_d0_1 h_S_) main_v11 main_c_3
  let main_v13 : IVec S_ 1 := andi main_v8 main_v12
  let main_v14 : FVec F S11008 .f32 := Host.absf main_arg4
  let main_cst_4 : FVec F S_ .f32 := constant S_ .f32 0x7F800000#32
  let main_v15 : FVec F S11008 .f32 := broadcastInDim S11008 ![] bcast_S_S11008 main_cst_4
  let main_v16 : IVec S11008 1 := cmpf .olt main_v14 main_v15
  fn_part1 (F := F) main_v13 main_v16
-- ==== Kernel.lean ====
abbrev S4x2048x4096 : Shape := ⟨3, ![4, 2048, 4096]⟩
abbrev S11008x512 : Shape := ⟨2, ![11008, 512]⟩
abbrev S32x11008 : Shape := ⟨2, ![32, 11008]⟩
abbrev S11008 : Shape := ⟨1, ![11008]⟩
abbrev S8192x4096 : Shape := ⟨2, ![8192, 4096]⟩
abbrev S8192x512x8 : Shape := ⟨3, ![8192, 512, 8]⟩
abbrev S8192x8x512 : Shape := ⟨3, ![8192, 8, 512]⟩
abbrev S1x11008 : Shape := ⟨2, ![1, 11008]⟩
abbrev S11008x4096 : Shape := ⟨2, ![11008, 4096]⟩
abbrev S256x512 : Shape := ⟨2, ![256, 512]⟩
abbrev S32x256 : Shape := ⟨2, ![32, 256]⟩
abbrev S256x4096 : Shape := ⟨2, ![256, 4096]⟩
abbrev S256x32 : Shape := ⟨2, ![256, 32]⟩
abbrev S256x32x1 : Shape := ⟨3, ![256, 32, 1]⟩
abbrev S256x32x16 : Shape := ⟨3, ![256, 32, 16]⟩
abbrev S8192x11008 : Shape := ⟨2, ![8192, 11008]⟩
abbrev S2048x1024 : Shape := ⟨2, ![2048, 1024]⟩
abbrev S1024x1024 : Shape := ⟨2, ![1024, 1024]⟩
abbrev S1x1024 : Shape := ⟨2, ![1, 1024]⟩
abbrev S4x2048x11008 : Shape := ⟨3, ![4, 2048, 11008]⟩

abbrev nBuf : Space → Nat
  | .hbm => 14
  | .vmem => 17
  | .smem => 0
  | _ => 0

abbrev bufTy : (tb : Table) → Fin (tcTables nBuf tb) → BufTy
  | .hbm, ⟨0, _⟩ => ⟨S4x2048x4096, .f32⟩
  | .hbm, ⟨1, _⟩ => ⟨S11008x512, .i32⟩
  | .hbm, ⟨2, _⟩ => ⟨S32x11008, .f32⟩
  | .hbm, ⟨3, _⟩ => ⟨S32x11008, .f32⟩
  | .hbm, ⟨4, _⟩ => ⟨S11008, .f32⟩
  | .hbm, ⟨5, _⟩ => ⟨S8192x4096, .f32⟩
  | .hbm, ⟨6, _⟩ => ⟨S8192x512x8, .f32⟩
  | .hbm, ⟨7, _⟩ => ⟨S8192x8x512, .f32⟩
  | .hbm, ⟨8, _⟩ => ⟨S8192x4096, .f32⟩
  | .hbm, ⟨9, _⟩ => ⟨S8192x4096, .bf16⟩
  | .hbm, ⟨10, _⟩ => ⟨S1x11008, .f32⟩
  | .hbm, ⟨11, _⟩ => ⟨S11008x4096, .bf16⟩
  | .hbm, ⟨12, _⟩ => ⟨S8192x11008, .f32⟩
  | .hbm, ⟨13, _⟩ => ⟨S4x2048x11008, .f32⟩
  | .local _ .vmem, ⟨0, _⟩ => ⟨S256x512, .i32⟩
  | .local _ .vmem, ⟨1, _⟩ => ⟨S256x512, .i32⟩
  | .local _ .vmem, ⟨2, _⟩ => ⟨S32x256, .f32⟩
  | .local _ .vmem, ⟨3, _⟩ => ⟨S32x256, .f32⟩
  | .local _ .vmem, ⟨4, _⟩ => ⟨S32x256, .f32⟩
  | .local _ .vmem, ⟨5, _⟩ => ⟨S32x256, .f32⟩
  | .local _ .vmem, ⟨6, _⟩ => ⟨S256x4096, .bf16⟩
  | .local _ .vmem, ⟨7, _⟩ => ⟨S256x4096, .bf16⟩
  | .local _ .vmem, ⟨8, _⟩ => ⟨S2048x1024, .bf16⟩
  | .local _ .vmem, ⟨9, _⟩ => ⟨S2048x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | .local _ .vmem, ⟨13, _⟩ => ⟨S1x1024, .f32⟩
  | .local _ .vmem, ⟨14, _⟩ => ⟨S2048x1024, .f32⟩
  | .local _ .vmem, ⟨15, _⟩ => ⟨S2048x1024, .f32⟩
  | .local _ .vmem, ⟨16, _⟩ => ⟨S2048x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![43], ![false]⟩

@[reducible] def k0_t1_loop : Scf.Loop 32 :=
  let c0_i32 : BitVec 32 := 0#32
  let c8_i32 : BitVec 32 := 8#32
  let v13 : BitVec 32 := Scalar.addi c0_i32 c8_i32
  let c1_i32 : BitVec 32 := 1#32
  ⟨c0_i32, v13, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c512_i32 : BitVec 32 := 512#32
  let v22 : BitVec 32 := Scalar.muli arg5 c512_i32
  v22
def k0_off1 (k0_t1 : Fin k0_t1_loop.trips) : Fin 2 → Nat :=
  let c0_6 : Index := 0#32
  let c0_i32 : BitVec 32 := 0#32
  let c1_i32 : BitVec 32 := 1#32
  let arg5 : BitVec 32 := Scf.iv c0_i32 c1_i32 k0_t1
  let c512_i32 : BitVec 32 := 512#32
  let v22 : BitVec 32 := Scalar.muli arg5 c512_i32
  let v23 : BitVec 32 := v22
  let v25 : Index := Scalar.indexCast v23
  ![0, v25.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![4, 11, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S2048x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S4x2048x4096_S8192x4096 : S4x2048x4096.ShapeCasts S8192x4096
  shapeCasts_S8192x4096_S8192x512x8 : S8192x4096.ShapeCasts S8192x512x8
  transposes_S8192x512x8_S8192x8x512_0_2_1 : S8192x512x8.Transposes [0, 2, 1] S8192x8x512
  shapeCasts_S8192x8x512_S8192x4096 : S8192x8x512.ShapeCasts S8192x4096
  bitsLt_bf16_f32 : FTy.bits .bf16 < FTy.bits .f32
  shapeCasts_S11008_S1x11008 : S11008.ShapeCasts S1x11008
  inb_S32x256_S32x256_0_0 : ∀ a, (![0, 0] : Fin 2 → Nat) a + S32x256.size a ≤ S32x256.size a
  h_S32x256 : 0 < S32x256.numel
  transposes_S32x256_p1_0_S256x32 : S32x256.Transposes [1, 0] S256x32
  shapeCasts_S256x32_S256x32x1 : S256x32.ShapeCasts S256x32x1
  shapeCasts_S256x32x1_S256x32x1 : S256x32x1.ShapeCasts S256x32x1
  broadcasts_S256x32x1_S256x32x16 : S256x32x1.Broadcasts S256x32x16
  shapeCasts_S256x32x16_S256x512 : S256x32x16.ShapeCasts S256x512
  inb_S256x512_S256x512_0_0 : ∀ a, (![0, 0] : Fin 2 → Nat) a + S256x512.size a ≤ S256x512.size a
  h_S256x512 : 0 < S256x512.numel
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S8192x11008_S4x2048x11008 : S8192x11008.ShapeCasts S4x2048x11008
  dot_S2048x1024_S1024x1024_S2048x1024_1_1_0_0_n_n_wf : DotDims.WF S2048x1024 S1024x1024 S2048x1024 [1] [1] [0] [0] [] []
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S256x512.size a ≤ S256x4096.size a
  k0_off1_packedbf16 : ∀ k0_t1 : Fin k0_t1_loop.trips, (Rect.unit (s := S256x4096) (k0_off1 k0_t1) S256x512.size (k0_off1_inb k0_t1)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S11008x512.size a
  hwx0_0 : ∀ i : grid0.Coords, EltTy.bits .i32 = 32 ∨ (Rect.block (s := S11008x512) S256x512.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x256.size a ≤ S32x11008.size a
  hwx0_1 : ∀ i : grid0.Coords, EltTy.bits .f32 = 32 ∨ (Rect.block (s := S32x11008) S32x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x256.size a ≤ S32x11008.size a
  hwx0_2 : ∀ i : grid0.Coords, EltTy.bits .f32 = 32 ∨ (Rect.block (s := S32x11008) S32x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S11008x4096.size a
  hwx0_3 : ∀ i : grid0.Coords, EltTy.bits .bf16 = 32 ∨ (Rect.block (s := S11008x4096) S256x4096.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S8192x4096.size a
  hwx1_0 : ∀ i : grid1.Coords, EltTy.bits .bf16 = 32 ∨ (Rect.block (s := S8192x4096) S2048x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S1024x1024.size a < S11008x4096.size a
  hwx1_1 : ∀ i : grid1.Coords, EltTy.bits .bf16 = 32 ∨ (Rect.unit (s := S11008x4096) (fun a => cc1_transform_1 i a * S1024x1024.size a) (fun a => (Pipeline.Clip.of (cc1_transform_1 i a) (S1024x1024.size a) (S11008x4096.size a)).extent (S1024x1024.size a)) fun a => Pipeline.Clip.inb (Pipeline.Clip.ok_of (hstart1_1 i a))).WholeWords (EltTy.packing .bf16)
  hwxs1_1 : ∀ i : grid1.Coords, EltTy.bits .bf16 = 32 ∨ (Rect.unit (s := S1024x1024) (fun _ => 0) (fun a => (Pipeline.Clip.of (cc1_transform_1 i a) (S1024x1024.size a) (S11008x4096.size a)).extent (S1024x1024.size a)) fun a => (Nat.zero_add _).trans_le (Pipeline.Clip.extent_le (Pipeline.Clip.ok_of (hstart1_1 i a)))).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S1x1024.size a < S1x11008.size a
  hwx1_2 : ∀ i : grid1.Coords, EltTy.bits .f32 = 32 ∨ (Rect.unit (s := S1x11008) (fun a => cc1_transform_2 i a * S1x1024.size a) (fun a => (Pipeline.Clip.of (cc1_transform_2 i a) (S1x1024.size a) (S1x11008.size a)).extent (S1x1024.size a)) fun a => Pipeline.Clip.inb (Pipeline.Clip.ok_of (hstart1_2 i a))).WholeWords (EltTy.packing .f32)
  hwxs1_2 : ∀ i : grid1.Coords, EltTy.bits .f32 = 32 ∨ (Rect.unit (s := S1x1024) (fun _ => 0) (fun a => (Pipeline.Clip.of (cc1_transform_2 i a) (S1x1024.size a) (S1x11008.size a)).extent (S1x1024.size a)) fun a => (Nat.zero_add _).trans_le (Pipeline.Clip.extent_le (Pipeline.Clip.ok_of (hstart1_2 i a)))).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hstart1_3 : ∀ (i : grid1.Coords) a, cc1_transform_3 i a * S2048x1024.size a < S8192x11008.size a
  hwx1_3 : ∀ i : grid1.Coords, EltTy.bits .f32 = 32 ∨ (Rect.unit (s := S8192x11008) (fun a => cc1_transform_3 i a * S2048x1024.size a) (fun a => (Pipeline.Clip.of (cc1_transform_3 i a) (S2048x1024.size a) (S8192x11008.size a)).extent (S2048x1024.size a)) fun a => Pipeline.Clip.inb (Pipeline.Clip.ok_of (hstart1_3 i a))).WholeWords (EltTy.packing .f32)
  hwxs1_3 : ∀ i : grid1.Coords, EltTy.bits .f32 = 32 ∨ (Rect.unit (s := S2048x1024) (fun _ => 0) (fun a => (Pipeline.Clip.of (cc1_transform_3 i a) (S2048x1024.size a) (S8192x11008.size a)).extent (S2048x1024.size a)) fun a => (Nat.zero_add _).trans_le (Pipeline.Clip.extent_le (Pipeline.Clip.ok_of (hstart1_3 i a)))).WholeWords (EltTy.packing .f32)

variable [Facts₀]

def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf

abbrev win0_0 : Pipeline.Window sig grid0 :=
  Pipeline.Window.ofSpec (Memref.whole main_arg1) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S32x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpecClip (Memref.whole main_v6) S1024x1024.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_v5) S1x1024.size cc1_transform_2 reads1_2 false false 2 stage1_2 sem1_2
    hrank1 hreads1_2 hstart1_2 nbuf1_2 (Memref.isWhole_whole _) hwx1_2 hwxs1_2 hstage1_2

abbrev win1_3 : Pipeline.Window sig grid1 :=
  Pipeline.Window.ofSpecClip (Memref.whole main_v7) S2048x1024.size cc1_transform_3 reads1_3 true false 2 stage1_3 sem1_3
    hrank1 hreads1_3 hstart1_3 nbuf1_3 (Memref.isWhole_whole _) hwx1_3 hwxs1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S11008x512 : Shape := ⟨2, ![11008, 512]⟩
abbrev S32x11008 : Shape := ⟨2, ![32, 11008]⟩
abbrev S11008 : Shape := ⟨1, ![11008]⟩
abbrev S8 : Shape := ⟨1, ![8]⟩
abbrev S_ : Shape := ⟨0, ![]⟩
abbrev S11008x512x1 : Shape := ⟨3, ![11008, 512, 1]⟩
abbrev S1x1x8 : Shape := ⟨3, ![1, 1, 8]⟩
abbrev S11008x512x8 : Shape := ⟨3, ![11008, 512, 8]⟩
abbrev S11008x4096 : Shape := ⟨2, ![11008, 4096]⟩
abbrev S11008x32x128 : Shape := ⟨3, ![11008, 32, 128]⟩
abbrev S11008x32 : Shape := ⟨2, ![11008, 32]⟩
abbrev S11008x32x1 : Shape := ⟨3, ![11008, 32, 1]⟩
abbrev S4x2048x11008 : Shape := ⟨3, ![4, 2048, 11008]⟩
abbrev S1x1x11008 : Shape := ⟨3, ![1, 1, 11008]⟩

abbrev nBuf : Space → Nat
  | .hbm => 33
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x512, .i32⟩
  | .hbm, ⟨2, _⟩ => ⟨S32x11008, .f32⟩
  | .hbm, ⟨3, _⟩ => ⟨S32x11008, .f32⟩
  | .hbm, ⟨4, _⟩ => ⟨S11008, .f32⟩
  | .hbm, ⟨5, _⟩ => ⟨S8, .i32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S11008x512x1, .i32⟩
  | .hbm, ⟨10, _⟩ => ⟨S1x1x8, .i32⟩
  | .hbm, ⟨11, _⟩ => ⟨S11008x512x8, .i32⟩
  | .hbm, ⟨12, _⟩ => ⟨S11008x512x8, .i32⟩
  | .hbm, ⟨13, _⟩ => ⟨S11008x512x8, .i32⟩
  | .hbm, ⟨14, _⟩ => ⟨S_, .i32⟩
  | .hbm, ⟨15, _⟩ => ⟨S11008x512x8, .i32⟩
  | .hbm, ⟨16, _⟩ => ⟨S11008x512x8, .i32⟩
  | .hbm, ⟨17, _⟩ => ⟨S11008x4096, .i32⟩
  | .hbm, ⟨18, _⟩ => ⟨S11008x4096, .f32⟩
  | .hbm, ⟨19, _⟩ => ⟨S11008x32x128, .f32⟩
  | .hbm, ⟨20, _⟩ => ⟨S11008x32, .f32⟩
  | .hbm, ⟨21, _⟩ => ⟨S11008x32x1, .f32⟩
  | .hbm, ⟨22, _⟩ => ⟨S11008x32x128, .f32⟩
  | .hbm, ⟨23, _⟩ => ⟨S11008x32x128, .f32⟩
  | .hbm, ⟨24, _⟩ => ⟨S11008x32, .f32⟩
  | .hbm, ⟨25, _⟩ => ⟨S11008x32x1, .f32⟩
  | .hbm, ⟨26, _⟩ => ⟨S11008x32x128, .f32⟩
  | .hbm, ⟨27, _⟩ => ⟨S11008x32x128, .f32⟩
  | .hbm, ⟨28, _⟩ => ⟨S11008x4096, .f32⟩
  | .hbm, ⟨29, _⟩ => ⟨S4x2048x11008, .f32⟩
  | .hbm, ⟨30, _⟩ => ⟨S1x1x11008, .f32⟩
  | .hbm, ⟨31, _⟩ => ⟨S4x2048x11008, .f32⟩
  | .hbm, ⟨32, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S11008x512_S11008x512x1_0_1 : S11008x512.BroadcastsInDim S11008x512x1 (![0, 1] : Fin 2 → Fin S11008x512x1.rank)
  bcast_S8_S1x1x8_2 : S8.BroadcastsInDim S1x1x8 (![2] : Fin 1 → Fin S1x1x8.rank)
  bcast_S11008x512x1_S11008x512x8_0_1_2 : S11008x512x1.BroadcastsInDim S11008x512x8 (![0, 1, 2] : Fin 3 → Fin S11008x512x8.rank)
  bcast_S1x1x8_S11008x512x8_0_1_2 : S1x1x8.BroadcastsInDim S11008x512x8 (![0, 1, 2] : Fin 3 → Fin S11008x512x8.rank)
  bcast_S_S11008x512x8 : S_.BroadcastsInDim S11008x512x8 (![] : Fin 0 → Fin S11008x512x8.rank)
  shapeCasts_S11008x512x8_S11008x4096 : S11008x512x8.ShapeCasts S11008x4096
  shapeCasts_S11008x4096_S11008x32x128 : S11008x4096.ShapeCasts S11008x32x128
  transposes_S32x11008_S11008x32_1_0 : S32x11008.Transposes [1, 0] S11008x32
  bcast_S11008x32_S11008x32x1_0_1 : S11008x32.BroadcastsInDim S11008x32x1 (![0, 1] : Fin 2 → Fin S11008x32x1.rank)
  bcast_S11008x32x1_S11008x32x128_0_1_2 : S11008x32x1.BroadcastsInDim S11008x32x128 (![0, 1, 2] : Fin 3 → Fin S11008x32x128.rank)
  shapeCasts_S11008x32x128_S11008x4096 : S11008x32x128.ShapeCasts S11008x4096
  bcast_S11008_S1x1x11008_2 : S11008.BroadcastsInDim S1x1x11008 (![2] : Fin 1 → Fin S1x1x11008.rank)
  bcast_S1x1x11008_S4x2048x11008_0_1_2 : S1x1x11008.BroadcastsInDim S4x2048x11008 (![0, 1, 2] : Fin 3 → Fin S4x2048x11008.rank)
  dot_S4x2048x4096_S11008x4096_S4x2048x11008_2_1_01_0_n_n_wf : DotDims.WF S4x2048x4096 S11008x4096 S4x2048x11008 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf

class Facts : Prop extends Facts₀ where

variable [Facts]
-- ==== Proof.DequantBody.lean ====
import proofs.«404523_j13640816132862_3_alg».proof.Proof.Gen.KernelIdeal.Skeleton
import proofs.«404523_j13640816132862_3_alg».proof.Proof.Gen.KernelIdeal.Loops
import proofs.«404523_j13640816132862_3_alg».proof.Proof.Gen.KernelIdeal.Launch
import proofs.«404523_j13640816132862_3_alg».proof.Proof.Gen.KernelIdeal.Points
import Idealize.ShloMosaic.Lib.Pipeline.FrameBody
import Idealize.ShloMosaic.Lib.Pipeline.Kit
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- What the unpacking kernel leaves in its output block: column `s * 512 + col` of row `r` holds nibble `s` of packed
    word `(r, col)`, less the group's zero point, times the group's scale. -/
def dqOut (q : Vec F S256x512 .i32) (sc ze : Vec F S32x256 .f32) : Vec F S256x4096 .bf16 := fun j =>
  k0_pay1 sc ze q ⟨(j 1).val / 512, by
    have h : (j 1).val < 4096 := (j 1).isLt
    have ht : k0_t1_loop.trips = 8 := by decide
    omega⟩ (fun a => match a with
      | ⟨0, _⟩ => ⟨(j 0).val, (j 0).isLt⟩
      | ⟨1, _⟩ => ⟨(j 1).val % 512, Nat.mod_lt _ (by decide)⟩)

/-- The piece trip `k` of the loop writes: the trip's payload through the unit-stride rectangle of a `256 × 512` slab
    at the trip's offsets. -/
def dqSlab (v0 v2 : Vec F S32x256 .f32) (v12 : Vec F S256x512 .i32) (k : Fin k0_t1_loop.trips) :
    View.Piece (Elt F) S256x4096 .bf16 :=
  ⟨Rect.unit (k0_off1 k) S256x512.size (k0_off1_inb k), k0_pay1 v0 v2 v12 k⟩

/-- One trip of the loop writes exactly its slab. -/
theorem dqTripL_eq (𝒱 : Variants) (c : Dev nD) (bd : Option 𝒱.V) (i : grid0.Coords)
    (arg1 : Memref sig .tc .vmem S256x512 .i32) (harg1 : arg1.IsWhole) (arg2 : Memref sig .tc .vmem S32x256 .f32) (harg2 : arg2.IsWhole)
    (arg3 : Memref sig .tc .vmem S32x256 .f32) (harg3 : arg3.IsWhole) (arg4 : Memref sig .tc .vmem S256x4096 .bf16) (harg4 : arg4.IsWhole)
    (v0 v2 : Vec F S32x256 .f32) (v12 : Vec F S256x512 .i32) (k : Fin k0_t1_loop.trips) :
    tripL_k0_t1 (F := F) 𝒱 c bd i arg1 harg1 arg2 harg2 arg3 harg3 arg4 harg4 v0 v2 v12 k = [dqSlab v0 v2 v12 k] := by
  unfold tripL_k0_t1 trip_k0_t1 dqSlab
  rfl

/-- The pieces of the trips before `n` are the slabs of the trips below `n`. -/
theorem dqMem_pb (𝒱 : Variants) (c : Dev nD) (bd : Option 𝒱.V) (i : grid0.Coords)
    (arg1 : Memref sig .tc .vmem S256x512 .i32) (harg1 : arg1.IsWhole) (arg2 : Memref sig .tc .vmem S32x256 .f32) (harg2 : arg2.IsWhole)
    (arg3 : Memref sig .tc .vmem S32x256 .f32) (harg3 : arg3.IsWhole) (arg4 : Memref sig .tc .vmem S256x4096 .bf16) (harg4 : arg4.IsWhole)
    (v0 v2 : Vec F S32x256 .f32) (v12 : Vec F S256x512 .i32) :
    ∀ n, n ≤ k0_t1_loop.trips → ∀ p : View.Piece (Elt F) S256x4096 .bf16,
      (p ∈ pb_k0_t1 (F := F) 𝒱 c bd i arg1 harg1 arg2 harg2 arg3 harg3 arg4 harg4 v0 v2 v12 n
        ↔ ∃ k : Fin k0_t1_loop.trips, k.val < n ∧ p = dqSlab v0 v2 v12 k) := by
  intro n
  induction n with
  | zero =>
    intro _ p
    rw [pb_k0_t1.eq_1]
    constructor
    · intro h; exact absurd h List.not_mem_nil
    · rintro ⟨k, hk, _⟩; exact absurd hk (Nat.not_lt_zero _)
  | succ n ih =>
    intro hn p
    have h : n < k0_t1_loop.trips := hn
    have e : pb_k0_t1 (F := F) 𝒱 c bd i arg1 harg1 arg2 harg2 arg3 harg3 arg4 harg4 v0 v2 v12 (n + 1)
        = tripL_k0_t1 (F := F) 𝒱 c bd i arg1 harg1 arg2 harg2 arg3 harg3 arg4 harg4 v0 v2 v12 ⟨n, h⟩
          ++ pb_k0_t1 (F := F) 𝒱 c bd i arg1 harg1 arg2 harg2 arg3 harg3 arg4 harg4 v0 v2 v12 n :=
      pb_k0_t1_succ 𝒱 c bd i arg1 harg1 arg2 harg2 arg3 harg3 arg4 harg4 v0 v2 v12 ⟨n, h⟩
    rw [e, List.mem_append, dqTripL_eq, List.mem_singleton, ih (Nat.le_of_lt h) p]
    constructor
    · rintro (rfl | ⟨k, hk, rfl⟩)
      · exact ⟨⟨n, h⟩, Nat.lt_succ_self n, rfl⟩
      · exact ⟨k, Nat.lt_succ_of_lt hk, rfl⟩
    · rintro ⟨k, hk, rfl⟩
      by_cases hkn : k.val = n
      · left
        have hk' : k = ⟨n, h⟩ := Fin.ext hkn
        rw [hk']
      · right
        exact ⟨k, by omega, rfl⟩

/-- The payload depends only on the trip and the index. -/
theorem dqPay_congr (v0 v2 : Vec F S32x256 .f32) (v12 : Vec F S256x512 .i32) {k k' : Fin k0_t1_loop.trips} (hk : k' = k)
    {x x' : S256x512.Idx} (hx : x' = x) : k0_pay1 v0 v2 v12 k' x' = k0_pay1 v0 v2 v12 k x := by
  subst hk; subst hx; rfl

/-- Column `512 k + c` of the output is column `c` of slab `k`: each slab's payload is the output function on its
    rectangle. -/
theorem dqSlab_agrees (q : Vec F S256x512 .i32) (sc ze : Vec F S32x256 .f32) (k : Fin k0_t1_loop.trips)
    (x : (dqSlab sc ze q k).1.shape.Idx) :
    (dqSlab sc ze q k).2 x = dqOut q sc ze ((dqSlab sc ze q k).1.emb x) := by
  have ho0 : k0_off1 k 0 = 0 := by rw [k0_off1_eq]; rfl
  have ho1 : k0_off1 k 1 = 512 * k.val := by rw [k0_off1_eq]; rfl
  have hx1 : (x 1).val < 512 := (x 1).isLt
  have e0 : (((dqSlab sc ze q k).1.emb x) 0).val = k0_off1 k 0 + 1 * (x 0).val := rfl
  have e1 : (((dqSlab sc ze q k).1.emb x) 1).val = k0_off1 k 1 + 1 * (x 1).val := rfl
  unfold dqOut
  refine (dqPay_congr sc ze q ?_ ?_).symm
  · apply Fin.ext
    show (((dqSlab sc ze q k).1.emb x) 1).val / 512 = k.val
    rw [e1, ho1]; omega
  · funext a
    match a with
    | ⟨0, _⟩ =>
      apply Fin.ext
      show (((dqSlab sc ze q k).1.emb x) 0).val = (x 0).val
      rw [e0, ho0]; omega
    | ⟨1, _⟩ =>
      apply Fin.ext
      show (((dqSlab sc ze q k).1.emb x) 1).val % 512 = (x 1).val
      rw [e1, ho1]; omega

/-- The eight slabs cover the `256 × 4096` block: index `(r, j)` lies in slab `j / 512`. -/
theorem dqSlab_cover (v0 v2 : Vec F S32x256 .f32) (v12 : Vec F S256x512 .i32) (y : S256x4096.Idx) :
    ∃ k : Fin k0_t1_loop.trips, y ∈ (dqSlab v0 v2 v12 k).1.set := by
  have ht : k0_t1_loop.trips = 8 := by decide
  have hy0 : (y 0).val < 256 := (y 0).isLt
  have hy1 : (y 1).val < 4096 := (y 1).isLt
  refine ⟨⟨(y 1).val / 512, by omega⟩, ?_⟩
  unfold dqSlab
  rw [Rect.mem_set_unit]
  intro a
  rw [k0_off1_eq]
  match a with
  | ⟨0, _⟩ =>
    show 0 ≤ (y 0).val ∧ (y 0).val < 0 + 256
    omega
  | ⟨1, _⟩ =>
    show 512 * ((y 1).val / 512) ≤ (y 1).val ∧ (y 1).val < 512 * ((y 1).val / 512) + 512
    omega

/-- The zero offsets of a rank-two access. -/
theorem dqZeros : (![0, 0] : Fin 2 → ℕ) = fun _ => 0 := by
  funext a
  match a with
  | ⟨0, _⟩ => rfl
  | ⟨1, _⟩ => rfl

/-- A load through the whole-shape rectangle at zero offsets reads the contents. -/
theorem dqLd_whole {S : Shape} {e : EltTy} {off : Fin S.rank → ℕ} (h : off = fun _ => 0)
    (inb : ∀ a, off a + S.size a ≤ S.size a) (X : S.Idx → Elt F e) :
    View.ld X (Rect.unit off S.size inb) = X := by
  subst h
  funext x
  show X ((Rect.whole S).emb x) = X x
  rw [Rect.emb_whole_apply]

theorem sound_dequant (c : Dev nD) (E : Set ℕ) (i : grid0.Coords)
    (arg1 : Memref sig .tc .vmem S256x512 .i32) (harg1 : arg1.IsWhole) (arg2 : Memref sig .tc .vmem S32x256 .f32) (harg2 : arg2.IsWhole)
    (arg3 : Memref sig .tc .vmem S32x256 .f32) (harg3 : arg3.IsWhole) (arg4 : Memref sig .tc .vmem S256x4096 .bf16) (harg4 : arg4.IsWhole)
    (q : Vec F S256x512 .i32) (sc ze : Vec F S32x256 .f32) (K : PUnit → sProp 𝕄) :
    iprop(owns (c : Thread nD τ) arg1 fullShare q ∗ owns (c : Thread nD τ) arg2 fullShare sc ∗ owns (c : Thread nD τ) arg3 fullShare ze
        ∗ (∃ d, owns (c : Thread nD τ) arg4 fullShare d)
        ∗ (iprop(owns (c : Thread nD τ) arg1 fullShare q ∗ owns (c : Thread nD τ) arg2 fullShare sc ∗ owns (c : Thread nD τ) arg3 fullShare ze
            ∗ owns (c : Thread nD τ) arg4 fullShare (dqOut q sc ze)) -∗ K ⟨⟩))
      ⊢ wp frame (wpE (defs₀ (F := F)) Variants.none c none) E (cc0__dequant_kernel i arg1 harg1 arg2 harg2 arg3 harg3 arg4 harg4) K := by
  rw [cc0__dequant_kernel_eq_skeleton]
  unfold cc0__dequant_kernel_skel
  unfold owns
  iintro ⟨⟨%f1, %h1, H1⟩, ⟨%f2, %h2, H2⟩, ⟨%f3, %h3, H3⟩, ⟨%d, %f4, %h4, H4⟩, HK⟩
  sl_exec
  sl_step
  -- the three loads read the input blocks whole
  have e1 : View.readAt (Elt F) arg1.view (Rect.unit ![0, 0] S256x512.size inb_S256x512_S256x512_0_0).toLoadRect f1 = q := by
    rw [View.readAt_eq_ld, dqLd_whole dqZeros, h1]
  have e2 : View.readAt (Elt F) arg2.view (Rect.unit ![0, 0] S32x256.size inb_S32x256_S32x256_0_0).toLoadRect f2 = sc := by
    rw [View.readAt_eq_ld, dqLd_whole dqZeros, h2]
  have e3 : View.readAt (Elt F) arg3.view (Rect.unit ![0, 0] S32x256.size inb_S32x256_S32x256_0_0).toLoadRect f3 = ze := by
    rw [View.readAt_eq_ld, dqLd_whole dqZeros, h3]
  iapply HK
  isplitl [H1]
  · iexists f1; isplitr
    · ipureintro; exact h1
    · iexact H1
  isplitl [H2]
  · iexists f2; isplitr
    · ipureintro; exact h2
    · iexact H2
  isplitl [H3]
  · iexists f3; isplitr
    · ipureintro; exact h3
    · iexact H3
  iexists _
  isplitr
  swap
  · iexact H4
  · ipureintro
    rw [e1, e2, e3]
    funext y
    obtain ⟨k, hk⟩ := dqSlab_cover sc ze q y
    refine View.read_writes_apply_of_pieces arg4.view f4 (dqOut q sc ze) _ ?_ y ?_
    · intro p hp x
      obtain ⟨k', _, rfl⟩ :=
        (dqMem_pb Variants.none c none i arg1 harg1 arg2 harg2 arg3 harg3 arg4 harg4 sc ze q _ (Nat.le_refl _) p).mp hp
      exact dqSlab_agrees q sc ze k' x
    · exact ⟨dqSlab sc ze q k,
        (dqMem_pb Variants.none c none i arg1 harg1 arg2 harg2 arg3 harg3 arg4 harg4 sc ze q _ (Nat.le_refl _) _).mpr ⟨k, k.isLt, rfl⟩, hk⟩

end Cert.KernelIdeal.Hand

end
-- ==== Proof.DequantData.lean ====
import proofs.«404523_j13640816132862_3_alg».proof.Proof.Gen.KernelIdeal.Skeleton
import proofs.«404523_j13640816132862_3_alg».proof.Proof.Gen.KernelIdeal.Loops
import proofs.«404523_j13640816132862_3_alg».proof.Proof.Gen.KernelIdeal.Launch
import proofs.«404523_j13640816132862_3_alg».proof.Proof.Gen.KernelIdeal.Points
import proofs.«404523_j13640816132862_3_alg».proof.Proof.DequantBody
import Idealize.ShloMosaic.Lib.Pipeline.FrameBody
import Idealize.ShloMosaic.Lib.Pipeline.Value
import Idealize.ShloMosaic.Lib.Pipeline.Kit
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the unpacking call is entered
variable (V : (c : Dev nD) → (b : Ref sig .tc) → Buf (Elt F) ((c : Thread nD τ).loc b))

/-- Window `w`'s block at grid point `t` of the unpacking call, read off its array at entry. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The unpacking call's proof data: the three inputs stay at their blocks, the output buffer ends at the unpacked,
    rescaled block. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => dqOut (iblk0 V c 0 t) (iblk0 V c 1 t) (iblk0 V c 2 t)
  Φ _ := Pipeline.ΦA spec0 c
  q _ := fullShare
  owed _ := 0

theorem dat0_A (c : Dev nD) (w : Fin cfg0.W) : (dat0 V c).A w = V c (Pipeline.arrRef spec0 w) := by
  dsimp only [dat0]

/-! ## What each window's buffer holds after the body -/

theorem dat0_after_0 (c : Dev nD) (t : Fin cfg0.N) : (dat0 V c).after 0 t = iblk0 V c 0 t := by dsimp only [dat0]
theorem dat0_after_1 (c : Dev nD) (t : Fin cfg0.N) : (dat0 V c).after 1 t = iblk0 V c 1 t := by dsimp only [dat0]
theorem dat0_after_2 (c : Dev nD) (t : Fin cfg0.N) : (dat0 V c).after 2 t = iblk0 V c 2 t := by dsimp only [dat0]
theorem dat0_after_3 (c : Dev nD) (t : Fin cfg0.N) :
    (dat0 V c).after 3 t = dqOut (iblk0 V c 0 t) (iblk0 V c 1 t) (iblk0 V c 2 t) := by dsimp only [dat0]

/-! ## What each input window's buffer holds when the body runs

Every input is fetched afresh at every grid point and no block is cut at the array's edge, so the buffer holds the
whole block of the point, whatever it held before. -/

/-- The packed words' buffer holds rows `256 t … 256 t + 255` of the packed array. -/
theorem dat0_before_0 (c : Dev nD) (t : Fin cfg0.N) (d) : (dat0 V c).before 0 t d = iblk0 V c 0 t := by
  rw [(dat0 V c).before_fetched 0 t (fetch0_0 t) d]
  unfold Dat.fetched Dat.blockOf iblk0
  rw [dat0_A]
  rfl

/-- The scales' buffer holds columns `256 t … 256 t + 255` of the scale array. -/
theorem dat0_before_1 (c : Dev nD) (t : Fin cfg0.N) (d) : (dat0 V c).before 1 t d = iblk0 V c 1 t := by
  rw [(dat0 V c).before_fetched 1 t (fetch0_1 t) d]
  unfold Dat.fetched Dat.blockOf iblk0
  rw [dat0_A]
  rfl

/-- The zero points' buffer holds columns `256 t … 256 t + 255` of the zero-point array. -/
theorem dat0_before_2 (c : Dev nD) (t : Fin cfg0.N) (d) : (dat0 V c).before 2 t d = iblk0 V c 2 t := by
  rw [(dat0 V c).before_fetched 2 t (fetch0_2 t) d]
  unfold Dat.fetched Dat.blockOf iblk0
  rw [dat0_A]
  rfl

/-! ## The body obligation -/

/-- What the body is handed at grid point `t`: the invariant, what the core owes, and the four current buffers — the
    inputs' at their blocks, the output's at anything. -/
def dqPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it hands back: the same invariant and debts, the inputs' buffers unchanged, the output's at the unpacked,
    rescaled block. -/
def dqPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at grid point `t`: the three input buffers hold the point's blocks, so the body's triple applies to them;
    the invariant and the debts are the same before and after, and the body touches neither. -/
theorem dq_body_at (c : Dev nD) (t : Fin cfg0.N) :
    dqPre V c t ⊢ wp frame (wpE (defs₀ (F := F)) Variants.none c none) Set.univ (bodyAt0 t) (fun _ => dqPost V c t) := by
  unfold dqPre dqPost bodyAt0
  simp only [dat0_before_0, dat0_before_1, dat0_before_2]
  rw [show (dat0 V c).Φ t.succ = (dat0 V c).Φ t.castSucc from rfl,
    show (dat0 V c).owesAt () t.succ = (dat0 V c).owesAt () t.castSucc from rfl,
    dat0_after_0, dat0_after_1, dat0_after_2, dat0_after_3]
  iintro ⟨HΦ, Ho, ⟨%d0, Hq⟩, ⟨%d1, Hs⟩, ⟨%d2, Hz⟩, ⟨%d3, Hw⟩⟩
  iapply (sound_dequant c Set.univ _ _ _ _ _ _ _ _ _ (iblk0 V c 0 t) (iblk0 V c 1 t) (iblk0 V c 2 t) _)
  isplitl [Hq]; · iexact Hq
  isplitl [Hs]; · iexact Hs
  isplitl [Hz]; · iexact Hz
  isplitl [Hw]; · iexists _; iexact Hw
  iintro ⟨Hq, Hs, Hz, Hw⟩
  isplitl [HΦ]; · iexact HΦ
  isplitl [Ho]; · iexact Ho
  isplitl [Hq]; · iexact Hq
  isplitl [Hs]; · iexact Hs
  isplitl [Hz]; · iexact Hz
  iexact Hw

theorem body_obligation0 (c : Dev nD) : BodyObligation (dat0 (F := F) V c) (defs₀ (F := F)) Variants.none () Set.univ := fun t => by
  rw [bigSep_W0, bigSep_W0]
  exact dq_body_at V c t

/-- The grid point whose block holds row `j 0` of the unpacked weights. -/
def rowPt (j : S11008x4096.Idx) : Fin cfg0.N := ⟨(j 0).val / 256, by
  have h : (j 0).val < 11008 := (j 0).isLt
  show (j 0).val / 256 < grid0.N
  rw [N_0]; omega⟩

/-- The unpacked weight array the first call leaves: row `o` is row `o % 256` of the block unpacked at grid point `o / 256`. -/
def wArr (c : Dev nD) : Buf (Elt F) ((c : Thread nD τ).loc main_v6) := fun j =>
  dqOut (iblk0 V c 0 (rowPt j)) (iblk0 V c 1 (rowPt j)) (iblk0 V c 2 (rowPt j))
    (fun a => match a with
      | ⟨0, _⟩ => ⟨(j 0).val % 256, Nat.mod_lt _ (by decide)⟩
      | ⟨1, _⟩ => ⟨(j 1).val, (j 1).isLt⟩)

/-! ## From the blocks to the whole array

Grid point `t` writes its block back to rows `256 t … 256 t + 255` of the output array, all 4096 columns. The 43 blocks
are therefore the restrictions of the one function `wArr` and together they fill the array. -/

/-- The output window's block index at grid point `t` is `(t, 0)`. -/
theorem out_index (t : Fin cfg0.N) : win0_3.index t (0 : Fin 2) = t.val ∧ win0_3.index t (1 : Fin 2) = 0 :=
  (by decide +kernel : ∀ t : Fin grid0.N, win0_3.index t (0 : Fin 2) = t.val ∧ win0_3.index t (1 : Fin 2) = 0) t

/-- `wArr` in row `256 t + r`, column `k`, is the block unpacked at grid point `t` in row `r`, column `k`:
    `(256 t + r) / 256 = t` and `(256 t + r) % 256 = r` for `r < 256`. -/
theorem wArr_of_row (c : Dev nD) (t : Fin cfg0.N) (j : S11008x4096.Idx) (y : S256x4096.Idx)
    (h0 : (j 0).val = t.val * 256 + (y 0).val) (h1 : (j 1).val = (y 1).val) :
    wArr V c j = dqOut (iblk0 V c 0 t) (iblk0 V c 1 t) (iblk0 V c 2 t) y := by
  have hy : (y 0).val < 256 := (y 0).isLt
  have ht : rowPt j = t := Fin.ext (by show (j 0).val / 256 = t.val; omega)
  subst ht
  have hr : (rowPt j).val = (j 0).val / 256 := rfl
  unfold wArr
  refine congrArg (dqOut (iblk0 V c 0 (rowPt j)) (iblk0 V c 1 (rowPt j)) (iblk0 V c 2 (rowPt j))) ?_
  funext a
  apply Fin.ext
  match a with
  | ⟨0, _⟩ => show (j 0).val % 256 = (y 0).val; omega
  | ⟨1, _⟩ => exact h1

/-- What grid point `t` writes back is block `t` of `wArr`: element `(r, k)` of the block sits in the array at
    `(256 t + r, k)`. -/
theorem dq_flushed_eq (c : Dev nD) (t : Fin cfg0.N) :
    (dat0 V c).flushed 3 t = ((cfg0.win 3).blk t).view.read (Elt F) (wArr V c) := by
  show (cfg0.win 3).cut (grid0.coords t) ((dat0 V c).after 3 t) = _
  rw [dat0_after_3]
  obtain ⟨e0, e1⟩ := out_index t
  funext y
  show dqOut (iblk0 V c 0 t) (iblk0 V c 1 t) (iblk0 V c 2 t) y = wArr V c (((cfg0.win 3).blk t).view.emb y)
  refine (wArr_of_row V c t _ y ?_ ?_).symm
  · show win0_3.index t (0 : Fin 2) * 256 + 1 * (y 0).val = t.val * 256 + (y 0).val
    rw [e0]; omega
  · show win0_3.index t (1 : Fin 2) * 4096 + 1 * (y 1).val = (y 1).val
    rw [e1]; omega

/-- An index of the output array lies in grid point `t`'s block iff on each axis its coordinate lies in the block's
    range there. -/
theorem mem_out_blk (t : Fin cfg0.N) (i : S11008x4096.Idx) :
    i ∈ ((cfg0.win 3).blk t).view.set ↔ ∀ a : Fin 2, win0_3.index t a * S256x4096.size a ≤ (i a).val
      ∧ (i a).val < win0_3.index t a * S256x4096.size a + S256x4096.size a := by
  show i ∈ ((View.whole main_v6).slice (win0_3.rect t)).set ↔ _
  rw [View.set_slice_whole, Rect.mem_set_unit]
  exact Iff.rfl

/-- Every index of the output array lies in the block of the grid point `(row) / 256`, which writes its block back:
    `256 (o / 256) ≤ o < 256 (o / 256) + 256`, and the block spans all 4096 columns. -/
theorem out_cover (i : S11008x4096.Idx) :
    ∃ t : Fin cfg0.N, (cfg0.win 3).flush t = true ∧ i ∈ ((cfg0.win 3).blk t).view.set := by
  refine ⟨rowPt i, flush0_3 _, ?_⟩
  rw [mem_out_blk]
  obtain ⟨e0, e1⟩ := out_index (rowPt i)
  have h1 : (i 1).val < 4096 := (i 1).isLt
  have hr : (rowPt i).val = (i 0).val / 256 := rfl
  intro a
  match a with
  | ⟨0, _⟩ =>
    show win0_3.index (rowPt i) (0 : Fin 2) * 256 ≤ (i 0).val ∧ (i 0).val < win0_3.index (rowPt i) (0 : Fin 2) * 256 + 256
    rw [e0, hr]; omega
  | ⟨1, _⟩ =>
    show win0_3.index (rowPt i) (1 : Fin 2) * 4096 ≤ (i 1).val ∧ (i 1).val < win0_3.index (rowPt i) (1 : Fin 2) * 4096 + 4096
    rw [e1]; omega

/-- The output array after the 43 write-backs is `wArr`: each write-back writes its block of `wArr`, and the blocks
    fill the array. -/
theorem final0 (c : Dev nD) : (dat0 V c).arrAt 3 cfg0.N = wArr V c :=
  (dat0 V c).arrAt_eq_of_cover 3 (wArr V c) (fun t _ => dq_flushed_eq V c t) out_cover

end Cert.KernelIdeal.Hand

end
-- ==== Proof.GemmBody.lean ====
import proofs.«404523_j13640816132862_3_alg».proof.Proof.Gen.KernelIdeal.Skeleton
import proofs.«404523_j13640816132862_3_alg».proof.Proof.Gen.KernelIdeal.Loops
import proofs.«404523_j13640816132862_3_alg».proof.Proof.Gen.KernelIdeal.Launch
import proofs.«404523_j13640816132862_3_alg».proof.Proof.Gen.KernelIdeal.Points
import Idealize.ShloMosaic.Lib.Pipeline.FrameBody
import Idealize.ShloMosaic.Lib.Pipeline.Kit
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The accumulator after one grid point: the matrix product of the two staged blocks added to what the
    accumulator held, the latter being zero at the first step of the contraction axis. -/
def accNext (i : grid1.Coords) (acc : Vec F S2048x1024 .f32) (x : Vec F S2048x1024 .bf16) (w : Vec F S1024x1024 .bf16) :
    Vec F S2048x1024 .f32 :=
  k1_pay2 (if (i 2).val = 0 then k1_pay1 (F := F) else acc) x w

/-- The output buffer after one grid point: the accumulator plus the bias row at the last step of the contraction
    axis, untouched before. -/
def outNext (i : grid1.Coords) (acc : Vec F S2048x1024 .f32) (x : Vec F S2048x1024 .bf16) (w : Vec F S1024x1024 .bf16)
    (b : Vec F S1x1024 .f32) (o : Vec F S2048x1024 .f32) : Vec F S2048x1024 .f32 :=
  if (i 2).val = 3 then k1_pay3 (accNext i acc x w) b else o

/-! ## Whole-buffer accesses

Every load and store of this kernel goes through the rectangle at zero offsets of the buffer's own sizes: such a
store, last, leaves its payload whatever was stored before, and such a load reads the contents. Stated once over an
abstract view and shape. -/

section Whole

variable {Val : EltTy → Type} [∀ e, Nonempty (Val e)] {sg : RefSig} {κ : Kind} {sp : Space} {S : Shape} {e : EltTy}

/-- The zero offsets of a rank-2 access, as the constant function. -/
theorem zeros2 : (![0, 0] : Fin 2 → Nat) = fun _ => 0 := funext fun a => by fin_cases a <;> rfl

/-- What a view reads after a list of stores whose last is a whole-buffer store is that store's payload. -/
theorem read_writes_whole_cons (v : View sg κ sp S e) (f : v.ty.Contents Val) {off : Fin S.rank → Nat}
    (h : off = fun _ => 0) (inb : ∀ a, off a + S.size a ≤ S.size a) (p : S.Idx → Val e) (L : List (View.Piece Val S e)) :
    v.read Val (v.writes Val f ((⟨Rect.unit off S.size inb, p⟩ : View.Piece Val S e) :: L)) = p := by
  rw [View.read_writes_eq_canon v f _ (fun y => ⟨_, List.mem_cons_self, View.mem_set_unit_zero h inb y⟩),
    View.canon_cons_unit_zero h inb]

/-- A whole-buffer load after a list of stores whose last is a whole-buffer store reads that store's payload. -/
theorem readCov_whole_cons (v : View sg κ sp S e) {off : Fin S.rank → Nat}
    (h : off = fun _ => 0) (inb : ∀ a, off a + S.size a ≤ S.size a) (p : S.Idx → Val e) (L : List (View.Piece Val S e)) :
    v.readCov ((⟨Rect.unit off S.size inb, p⟩ : View.Piece Val S e) :: L) (Rect.unit off S.size inb).toLoadRect = p := by
  rw [View.readCov_eq_canon_ld v _ _ (fun y => ⟨_, List.mem_cons_self, View.mem_set_unit_zero h inb y⟩),
    View.canon_cons_unit_zero h inb, View.ld_unit_zero h inb]

/-- A whole-buffer load of a whole memref reads its contents. -/
theorem readAt_whole_unread {m : Memref sg κ sp S e} (hm : m.IsWhole) {off : Fin S.rank → Nat}
    (h : off = fun _ => 0) (inb : ∀ a, off a + S.size a ≤ S.size a) (X : S.Idx → Val e) :
    m.view.readAt Val (Rect.unit off S.size inb).toLoadRect (hm.unread X) = X := by
  rw [View.readAt_eq_ld, hm.read_unread, View.ld_unit_zero h inb]

end Whole

/-! ## The two conditions, decided over the contraction axis -/

/-- The condition of the first conditional (the accumulator is reset), from the grid coordinates. -/
abbrev condReset (i : grid1.Coords) : Prop :=
  (Scalar.cmpi .ne (Scalar.extui (Scalar.cmpi .eq (BitVec.ofNat 32 (i 2).val) 0#32)) 0#32) = 1#1
/-- The condition of the second conditional (the epilogue stores the output). -/
abbrev condLast (i : grid1.Coords) : Prop := k1_cond2 i = 1#1

/-- The contraction axis of the grid has four steps. -/
theorem coord2_lt (i : grid1.Coords) : (i 2).val < 4 := (i 2).isLt

/-- The reset happens exactly at the first step of the contraction axis. -/
theorem condReset_iff (i : grid1.Coords) : condReset i ↔ (i 2).val = 0 := by
  have h := coord2_lt i
  unfold condReset
  generalize (i 2).val = n at h ⊢
  obtain rfl | rfl | rfl | rfl : n = 0 ∨ n = 1 ∨ n = 2 ∨ n = 3 := by omega
  all_goals decide

/-- The epilogue happens exactly at the last step of the contraction axis. -/
theorem condLast_iff (i : grid1.Coords) : condLast i ↔ (i 2).val = 3 := by
  have h := coord2_lt i
  unfold condLast k1_cond2
  generalize (i 2).val = n at h ⊢
  obtain rfl | rfl | rfl | rfl : n = 0 ∨ n = 1 ∨ n = 2 ∨ n = 3 := by omega
  all_goals decide

/-! ## The body, case by case

The body is run on whole memrefs at their raw contents; the two conditionals are decided by the case's hypotheses; each
buffer the case stores into is then read back through its last, whole-buffer store. -/

set_option maxHeartbeats 1000000 in
/-- First step of the contraction axis: the accumulator is zeroed, then the product is added; no output store. -/
theorem sound_gemm_first (c : Dev nD) (E : Set ℕ) (i : grid1.Coords)
    (arg3 : Memref sig .tc .vmem S2048x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S2048x1024 .f32) (harg6 : arg6.IsWhole)
    (arg7 : Memref sig .tc .vmem S2048x1024 .f32) (harg7 : arg7.IsWhole)
    (hc0 : condReset i) (hc1 : ¬condLast i)
    (x : Vec F S2048x1024 .bf16) (w : Vec F S1024x1024 .bf16) (b : Vec F S1x1024 .f32) (o acc : Vec F S2048x1024 .f32)
    (K : PUnit → sProp 𝕄) :
    iprop(owns (c : Thread nD τ) arg3 fullShare x ∗ owns (c : Thread nD τ) arg4 fullShare w ∗ owns (c : Thread nD τ) arg5 fullShare b
        ∗ owns (c : Thread nD τ) arg6 fullShare o ∗ owns (c : Thread nD τ) arg7 fullShare acc
        ∗ (iprop(owns (c : Thread nD τ) arg3 fullShare x ∗ owns (c : Thread nD τ) arg4 fullShare w ∗ owns (c : Thread nD τ) arg5 fullShare b
            ∗ owns (c : Thread nD τ) arg6 fullShare o ∗ owns (c : Thread nD τ) arg7 fullShare (k1_pay2 (k1_pay1 (F := F)) x w)) -∗ K ⟨⟩))
      ⊢ wp frame (wpE (defs₀ (F := F)) Variants.none c none) E (cc1__gemm_kernel i arg3 harg3 arg4 harg4 arg5 harg5 arg6 harg6 arg7 harg7) K := by
  simp only [cc1__gemm_kernel_eq_skeleton]; unfold cc1__gemm_kernel_skel
  unfold owns
  iintro ⟨⟨%f3, %hf3, H3⟩, ⟨%f4, %hf4, H4⟩, ⟨%f5, %hf5, H5⟩, ⟨%f6, %hf6, H6⟩, ⟨%f7, %hf7, H7⟩, Hk⟩
  obtain rfl := harg3.eq_unread hf3; obtain rfl := harg4.eq_unread hf4; obtain rfl := harg5.eq_unread hf5
  obtain rfl := harg6.eq_unread hf6; obtain rfl := harg7.eq_unread hf7
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  iexists _; isplitr; swap; · iexact H7
  ipureintro
  refine (read_writes_whole_cons _ _ zeros2 _ _ _).trans ?_
  sl_unfold_words
  rw [readCov_whole_cons _ zeros2, readAt_whole_unread harg3 zeros2, readAt_whole_unread harg4 zeros2]

set_option maxHeartbeats 1000000 in
/-- A middle step of the contraction axis: the product is added to the accumulator; no output store. -/
theorem sound_gemm_middle (c : Dev nD) (E : Set ℕ) (i : grid1.Coords)
    (arg3 : Memref sig .tc .vmem S2048x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S2048x1024 .f32) (harg6 : arg6.IsWhole)
    (arg7 : Memref sig .tc .vmem S2048x1024 .f32) (harg7 : arg7.IsWhole)
    (hc0 : ¬condReset i) (hc1 : ¬condLast i)
    (x : Vec F S2048x1024 .bf16) (w : Vec F S1024x1024 .bf16) (b : Vec F S1x1024 .f32) (o acc : Vec F S2048x1024 .f32)
    (K : PUnit → sProp 𝕄) :
    iprop(owns (c : Thread nD τ) arg3 fullShare x ∗ owns (c : Thread nD τ) arg4 fullShare w ∗ owns (c : Thread nD τ) arg5 fullShare b
        ∗ owns (c : Thread nD τ) arg6 fullShare o ∗ owns (c : Thread nD τ) arg7 fullShare acc
        ∗ (iprop(owns (c : Thread nD τ) arg3 fullShare x ∗ owns (c : Thread nD τ) arg4 fullShare w ∗ owns (c : Thread nD τ) arg5 fullShare b
            ∗ owns (c : Thread nD τ) arg6 fullShare o ∗ owns (c : Thread nD τ) arg7 fullShare (k1_pay2 acc x w)) -∗ K ⟨⟩))
      ⊢ wp frame (wpE (defs₀ (F := F)) Variants.none c none) E (cc1__gemm_kernel i arg3 harg3 arg4 harg4 arg5 harg5 arg6 harg6 arg7 harg7) K := by
  simp only [cc1__gemm_kernel_eq_skeleton]; unfold cc1__gemm_kernel_skel
  unfold owns
  iintro ⟨⟨%f3, %hf3, H3⟩, ⟨%f4, %hf4, H4⟩, ⟨%f5, %hf5, H5⟩, ⟨%f6, %hf6, H6⟩, ⟨%f7, %hf7, H7⟩, Hk⟩
  obtain rfl := harg3.eq_unread hf3; obtain rfl := harg4.eq_unread hf4; obtain rfl := harg5.eq_unread hf5
  obtain rfl := harg6.eq_unread hf6; obtain rfl := harg7.eq_unread hf7
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  iexists _; isplitr; swap; · iexact H7
  ipureintro
  refine (read_writes_whole_cons _ _ zeros2 _ _ _).trans ?_
  try sl_unfold_words
  rw [readAt_whole_unread harg7 zeros2, readAt_whole_unread harg3 zeros2, readAt_whole_unread harg4 zeros2]

set_option maxHeartbeats 1000000 in
/-- Last step of the contraction axis: the product is added to the accumulator, and the accumulator plus the bias
    row is stored into the output buffer. -/
theorem sound_gemm_last (c : Dev nD) (E : Set ℕ) (i : grid1.Coords)
    (arg3 : Memref sig .tc .vmem S2048x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S2048x1024 .f32) (harg6 : arg6.IsWhole)
    (arg7 : Memref sig .tc .vmem S2048x1024 .f32) (harg7 : arg7.IsWhole)
    (hc0 : ¬condReset i) (hc1 : condLast i)
    (x : Vec F S2048x1024 .bf16) (w : Vec F S1024x1024 .bf16) (b : Vec F S1x1024 .f32) (o acc : Vec F S2048x1024 .f32)
    (K : PUnit → sProp 𝕄) :
    iprop(owns (c : Thread nD τ) arg3 fullShare x ∗ owns (c : Thread nD τ) arg4 fullShare w ∗ owns (c : Thread nD τ) arg5 fullShare b
        ∗ owns (c : Thread nD τ) arg6 fullShare o ∗ owns (c : Thread nD τ) arg7 fullShare acc
        ∗ (iprop(owns (c : Thread nD τ) arg3 fullShare x ∗ owns (c : Thread nD τ) arg4 fullShare w ∗ owns (c : Thread nD τ) arg5 fullShare b
            ∗ owns (c : Thread nD τ) arg6 fullShare (k1_pay3 (k1_pay2 acc x w) b) ∗ owns (c : Thread nD τ) arg7 fullShare (k1_pay2 acc x w)) -∗ K ⟨⟩))
      ⊢ wp frame (wpE (defs₀ (F := F)) Variants.none c none) E (cc1__gemm_kernel i arg3 harg3 arg4 harg4 arg5 harg5 arg6 harg6 arg7 harg7) K := by
  simp only [cc1__gemm_kernel_eq_skeleton]; unfold cc1__gemm_kernel_skel
  unfold owns
  iintro ⟨⟨%f3, %hf3, H3⟩, ⟨%f4, %hf4, H4⟩, ⟨%f5, %hf5, H5⟩, ⟨%f6, %hf6, H6⟩, ⟨%f7, %hf7, H7⟩, Hk⟩
  obtain rfl := harg3.eq_unread hf3; obtain rfl := harg4.eq_unread hf4; obtain rfl := harg5.eq_unread hf5
  obtain rfl := harg6.eq_unread hf6; obtain rfl := harg7.eq_unread hf7
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    refine (read_writes_whole_cons _ _ zeros2 _ _ _).trans ?_
    try sl_unfold_words
    rw [readCov_whole_cons _ zeros2, readAt_whole_unread harg7 zeros2, readAt_whole_unread harg3 zeros2,
      readAt_whole_unread harg4 zeros2, readAt_whole_unread harg5 zeros2]
  iexists _; isplitr; swap; · iexact H7
  ipureintro
  refine (read_writes_whole_cons _ _ zeros2 _ _ _).trans ?_
  try sl_unfold_words
  rw [readAt_whole_unread harg7 zeros2, readAt_whole_unread harg3 zeros2, readAt_whole_unread harg4 zeros2]

/-! ## The body at any grid point -/

theorem sound_gemm (c : Dev nD) (E : Set ℕ) (i : grid1.Coords)
    (arg3 : Memref sig .tc .vmem S2048x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S2048x1024 .f32) (harg6 : arg6.IsWhole)
    (arg7 : Memref sig .tc .vmem S2048x1024 .f32) (harg7 : arg7.IsWhole)
    (x : Vec F S2048x1024 .bf16) (w : Vec F S1024x1024 .bf16) (b : Vec F S1x1024 .f32) (o acc : Vec F S2048x1024 .f32)
    (K : PUnit → sProp 𝕄) :
    iprop(owns (c : Thread nD τ) arg3 fullShare x ∗ owns (c : Thread nD τ) arg4 fullShare w ∗ owns (c : Thread nD τ) arg5 fullShare b
        ∗ owns (c : Thread nD τ) arg6 fullShare o ∗ owns (c : Thread nD τ) arg7 fullShare acc
        ∗ (iprop(owns (c : Thread nD τ) arg3 fullShare x ∗ owns (c : Thread nD τ) arg4 fullShare w ∗ owns (c : Thread nD τ) arg5 fullShare b
            ∗ owns (c : Thread nD τ) arg6 fullShare (outNext i acc x w b o) ∗ owns (c : Thread nD τ) arg7 fullShare (accNext i acc x w)) -∗ K ⟨⟩))
      ⊢ wp frame (wpE (defs₀ (F := F)) Variants.none c none) E (cc1__gemm_kernel i arg3 harg3 arg4 harg4 arg5 harg5 arg6 harg6 arg7 harg7) K := by
  have h4 := coord2_lt i
  by_cases h0 : (i 2).val = 0
  · have e1 : accNext i acc x w = k1_pay2 (k1_pay1 (F := F)) x w := by unfold accNext; rw [if_pos h0]
    have e2 : outNext i acc x w b o = o := by unfold outNext; rw [if_neg (by omega)]
    rw [e1, e2]
    exact sound_gemm_first c E i arg3 harg3 arg4 harg4 arg5 harg5 arg6 harg6 arg7 harg7 ((condReset_iff i).2 h0)
      (fun h => by have := (condLast_iff i).1 h; omega) x w b o acc K
  have e1 : accNext i acc x w = k1_pay2 acc x w := by unfold accNext; rw [if_neg h0]
  by_cases h3 : (i 2).val = 3
  · have e2 : outNext i acc x w b o = k1_pay3 (k1_pay2 acc x w) b := by unfold outNext; rw [if_pos h3, e1]
    rw [e2, e1]
    exact sound_gemm_last c E i arg3 harg3 arg4 harg4 arg5 harg5 arg6 harg6 arg7 harg7
      (fun h => h0 ((condReset_iff i).1 h)) ((condLast_iff i).2 h3) x w b o acc K
  · have e2 : outNext i acc x w b o = o := by unfold outNext; rw [if_neg h3]
    rw [e2, e1]
    exact sound_gemm_middle c E i arg3 harg3 arg4 harg4 arg5 harg5 arg6 harg6 arg7 harg7
      (fun h => h0 ((condReset_iff i).1 h)) (fun h => h3 ((condLast_iff i).1 h)) x w b o acc K

end Cert.KernelIdeal.Hand

end
-- ==== Proof.GemmData.lean ====
import proofs.«404523_j13640816132862_3_alg».proof.Proof.Gen.KernelIdeal.Skeleton
import proofs.«404523_j13640816132862_3_alg».proof.Proof.Gen.KernelIdeal.Loops
import proofs.«404523_j13640816132862_3_alg».proof.Proof.Gen.KernelIdeal.Launch
import proofs.«404523_j13640816132862_3_alg».proof.Proof.Gen.KernelIdeal.Points
import proofs.«404523_j13640816132862_3_alg».proof.Proof.GemmBody
import Idealize.ShloMosaic.Lib.Pipeline.FrameBody
import Idealize.ShloMosaic.Lib.Pipeline.Kit
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the matrix-product call is entered
variable (V : (c : Dev nD) → (b : Ref sig .tc) → Buf (Elt F) ((c : Thread nD τ).loc b))
-- what is known of the accumulator before each grid point, and what the output buffer is to hold where it is written back
variable (P : Fin (cfg1.N + 1) → Vec F S2048x1024 .f32 → Prop) (O : Fin cfg1.N → Vec F S2048x1024 .f32)

/-- Window `w`'s block at grid point `t` of the matrix-product call: the part of it inside its array, read at entry. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- A staging buffer holding window `w`'s block at `t` on the part a fetch fills and `d` on the rest. -/
abbrev filled (c : Dev nD) (w : Fin cfg1.W) (t : Fin cfg1.N) (d : (cfg1.win w).block.Idx → Elt F (cfg1.win w).elt) :
    (cfg1.win w).block.Idx → Elt F (cfg1.win w).elt :=
  (cfg1.win w).fill (cfg1.grid.coords t) d (iblk1 V c w t)

/-- The core's scoped buffers that the matrix-product call neither stages nor names: the first call's staging buffers. -/
def otherStaging (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f))

/-- The accumulator scratch at some contents of which `P t` holds. -/
def accHeld (c : Dev nD) (t : Fin (cfg1.N + 1)) : sProp 𝕄 :=
  iprop(∃ acc : Vec F S2048x1024 .f32, ⌜P t acc⌝ ∗ owns (c : Thread nD τ) (Memref.whole cc1_scratch0) fullShare acc)

/-- The matrix-product call's proof data: the three inputs stay at their blocks (on the part inside the array), the
    accumulator scratch is carried in the invariant, the output buffer is left at `O t` where it is written back. -/
def dat1 (c : Dev nD) : Dat τ (Elt F) Unit ℕ (UR sig nD τ) ℕ cfg1 c where
  A w := V c (Pipeline.arrRef spec1 w)
  after w t := match w with
    | ⟨0, _⟩ => filled V c 0 t (fun _ => Scalar.ofBits .bf16 0#16)
    | ⟨1, _⟩ => filled V c 1 t (fun _ => Scalar.ofBits .bf16 0#16)
    | ⟨2, _⟩ => filled V c 2 t (fun _ => Scalar.ofBits .f32 0#32)
    | ⟨3, _⟩ => O t
  Φ t := iprop(accHeld P c t ∗ otherStaging c ∗ ∃ r, prngReg c r)
  q _ := fullShare
  owed _ := 0

theorem dat1_A (c : Dev nD) (w : Fin cfg1.W) : (dat1 V P O c).A w = V c (Pipeline.arrRef spec1 w) := by
  dsimp only [dat1]

theorem dat1_blockOf (c : Dev nD) (w : Fin cfg1.W) (t : Fin cfg1.N) : (dat1 V P O c).blockOf w t = iblk1 V c w t := by
  unfold Dat.blockOf iblk1; rw [dat1_A]

theorem dat1_fetched (c : Dev nD) (w : Fin cfg1.W) (t : Fin cfg1.N) (d) : (dat1 V P O c).fetched w t d = filled V c w t d := by
  unfold Dat.fetched; rw [dat1_blockOf]

/-! ## The schedule in closed form -/

/-- The innermost grid coordinate (the step along the contraction axis) of point `t`. -/
theorem coord2 : ∀ t : Fin cfg1.N, ((grid1.coords t) 2).val = t.val % 4 :=
  (by decide +kernel : ∀ t : Fin grid1.N, ((grid1.coords t) 2).val = t.val % 4)

/-- The output window is idle exactly off the last step of the contraction axis. -/
theorem idle3_iff : ∀ t : Fin cfg1.N, cfg1.idle 3 (cfg1.grid.coords t) = true ↔ ¬ t.val % 4 = 3 :=
  (by decide +kernel : ∀ t : Fin grid1.N, idle1 3 (grid1.coords t) = true ↔ ¬ t.val % 4 = 3)

theorem isOut_0 : (cfg1.win 0).isOut = false := rfl
theorem isOut_1 : (cfg1.win 1).isOut = false := rfl
theorem isOut_2 : (cfg1.win 2).isOut = false := rfl

/-- A clipped window's cuts depend on the point only through its block index. -/
theorem clip_congr_1 (t t' : Fin cfg1.N) (h : (cfg1.win 1).index t = (cfg1.win 1).index t') :
    (cfg1.win 1).clip (cfg1.grid.coords t) = (cfg1.win 1).clip (cfg1.grid.coords t') := by
  funext a
  show Pipeline.Clip.of ((cfg1.win 1).index t a) _ _ = Pipeline.Clip.of ((cfg1.win 1).index t' a) _ _
  rw [h]

theorem clip_congr_2 (t t' : Fin cfg1.N) (h : (cfg1.win 2).index t = (cfg1.win 2).index t') :
    (cfg1.win 2).clip (cfg1.grid.coords t) = (cfg1.win 2).clip (cfg1.grid.coords t') := by
  funext a
  show Pipeline.Clip.of ((cfg1.win 2).index t a) _ _ = Pipeline.Clip.of ((cfg1.win 2).index t' a) _ _
  rw [h]

/-! ## What the body finds in the input windows -/

theorem before_0 (c : Dev nD) (t : Fin cfg1.N) (d) : (dat1 V P O c).before 0 t d = filled V c 0 t d := by
  rw [(dat1 V P O c).before_in_eq_fetched 0 isOut_0 (fun _ => rfl) (fun _ _ _ => rfl)
    (fun t => by rw [dat1_blockOf]; dsimp only [dat1]; exact (cfg1.win 0).cut_fill _ _ _) t d, dat1_fetched]

theorem before_1 (c : Dev nD) (t : Fin cfg1.N) (d) : (dat1 V P O c).before 1 t d = filled V c 1 t d := by
  rw [(dat1 V P O c).before_in_eq_fetched 1 isOut_1 (fun _ => rfl) clip_congr_1
    (fun t => by rw [dat1_blockOf]; dsimp only [dat1]; exact (cfg1.win 1).cut_fill _ _ _) t d, dat1_fetched]

theorem before_2 (c : Dev nD) (t : Fin cfg1.N) (d) : (dat1 V P O c).before 2 t d = filled V c 2 t d := by
  rw [(dat1 V P O c).before_in_eq_fetched 2 isOut_2 (fun _ => rfl) clip_congr_2
    (fun t => by rw [dat1_blockOf]; dsimp only [dat1]; exact (cfg1.win 2).cut_fill _ _ _) t d, dat1_fetched]

/-- Window 0 is not clipped: a fetch fills the whole buffer, whatever it held. -/
theorem before_0_irrel (c : Dev nD) (t : Fin cfg1.N) (d d') : (dat1 V P O c).before 0 t d = (dat1 V P O c).before 0 t d' := by
  rw [before_0, before_0, ← dat1_fetched V P O, ← dat1_fetched V P O]
  exact (dat1 V P O c).fetched_of_clip_none 0 t (fun _ => rfl) d d'

/-! ## The body obligation -/

/-- The windows the claim does not read: the output window when `f3` is set, none otherwise. -/
abbrev fgt1 (f3 : Bool) : Fin cfg1.W → Bool := fun w => match w with
  | ⟨0, _⟩ => false
  | ⟨1, _⟩ => false
  | ⟨2, _⟩ => false
  | ⟨3, _⟩ => f3

/-- What the body is handed at point `t`, the output window's buffer at what the pipeline left in it (`keep`) or at anything. -/
def bodyPre1 (c : Dev nD) (t : Fin cfg1.N) (keep : Bool) : sProp 𝕄 :=
  iprop((dat1 V P O c).Φ t.castSucc ∗ (dat1 V P O c).owesAt () t.castSucc
    ∗ (∃ d, owns (c : Thread nD τ) (st1_0 t) fullShare ((dat1 V P O c).before 0 t d))
    ∗ (∃ d, owns (c : Thread nD τ) (st1_1 t) fullShare ((dat1 V P O c).before 1 t d))
    ∗ (∃ d, owns (c : Thread nD τ) (st1_2 t) fullShare ((dat1 V P O c).before 2 t d))
    ∗ (match keep with
      | true => iprop(∃ d, owns (c : Thread nD τ) (st1_3 t) fullShare ((dat1 V P O c).before 3 t d))
      | false => iprop(∃ X, owns (c : Thread nD τ) (st1_3 t) fullShare X)))

/-- What the body hands back: the inputs on the part inside their arrays, the output window's buffer as found off the last
    step of the contraction axis and at `O t` (on the part inside the array) at it. -/
def bodyPost1 (c : Dev nD) (t : Fin cfg1.N) (keep : Bool) : sProp 𝕄 :=
  iprop((dat1 V P O c).Φ t.succ ∗ (dat1 V P O c).owesAt () t.succ
    ∗ owns (c : Thread nD τ) (st1_0 t) fullShare ((dat1 V P O c).after 0 t)
    ∗ (∃ d, owns (c : Thread nD τ) (st1_1 t) fullShare ((win1 1).fill (grid1.coords t) d ((win1 1).cut (grid1.coords t) ((dat1 V P O c).after 1 t))))
    ∗ (∃ d, owns (c : Thread nD τ) (st1_2 t) fullShare ((win1 2).fill (grid1.coords t) d ((win1 2).cut (grid1.coords t) ((dat1 V P O c).after 2 t))))
    ∗ (match keep with
      | true =>
        (match idle1 3 (grid1.coords t) with
        | true =>
          match (win1 3).flush t with
          | false => iprop(∃ d, owns (c : Thread nD τ) (st1_3 t) fullShare ((dat1 V P O c).before 3 t d))
          | true => iprop(∃ d, owns (c : Thread nD τ) (st1_3 t) fullShare ((win1 3).fill (grid1.coords t) d ((win1 3).cut (grid1.coords t) ((dat1 V P O c).after 3 t))))
        | false => iprop(∃ d, owns (c : Thread nD τ) (st1_3 t) fullShare ((win1 3).fill (grid1.coords t) d ((win1 3).cut (grid1.coords t) ((dat1 V P O c).after 3 t)))))
      | false => iprop(∃ X, owns (c : Thread nD τ) (st1_3 t) fullShare X)))

set_option maxHeartbeats 1600000 in
theorem sound_body1 (c : Dev nD) (t : Fin cfg1.N) (keep : Bool)
    (hP : ∀ (t : Fin cfg1.N) d0 d1 acc, P t.castSucc acc →
      P t.succ (accNext (grid1.coords t) acc (filled V c 0 t d0) (filled V c 1 t d1)))
    (hO : keep = true → ∀ (t : Fin cfg1.N), t.val % 4 = 3 → ∀ d0 d1 d2 acc, P t.castSucc acc →
      (cfg1.win 3).cut (cfg1.grid.coords t) (k1_pay3 (accNext (grid1.coords t) acc (filled V c 0 t d0) (filled V c 1 t d1)) (filled V c 2 t d2))
        = (cfg1.win 3).cut (cfg1.grid.coords t) (O t)) :
    bodyPre1 V P O c t keep ⊢ wp frame (wpE (defs₀ (F := F)) Variants.none c none) Set.univ (bodyAt1 t) (fun _ => bodyPost1 V P O c t keep) := by
  unfold bodyPre1 bodyPost1 bodyAt1
  have hΦ0 : (dat1 V P O c).Φ t.castSucc = iprop(accHeld P c t.castSucc ∗ otherStaging c ∗ ∃ r, prngReg c r) := rfl
  have hΦ1 : (dat1 V P O c).Φ t.succ = iprop(accHeld P c t.succ ∗ otherStaging c ∗ ∃ r, prngReg c r) := rfl
  have hOw : (dat1 V P O c).owesAt () t.succ = (dat1 V P O c).owesAt () t.castSucc := rfl
  have ha0 : (dat1 V P O c).after 0 t = filled V c 0 t (fun _ => Scalar.ofBits .bf16 0#16) := by dsimp only [dat1]
  have ha1 : (dat1 V P O c).after 1 t = filled V c 1 t (fun _ => Scalar.ofBits .bf16 0#16) := by dsimp only [dat1]
  have ha2 : (dat1 V P O c).after 2 t = filled V c 2 t (fun _ => Scalar.ofBits .f32 0#32) := by dsimp only [dat1]
  have ha3 : (dat1 V P O c).after 3 t = O t := by dsimp only [dat1]
  have hk : ((grid1.coords t) 2).val = t.val % 4 := coord2 t
  rw [hΦ0, hΦ1, hOw]
  unfold accHeld
  cases keep
  · dsimp only
    iintro ⟨⟨⟨%acc, %hacc, Hacc⟩, Hst, Hp⟩, Ho, ⟨%d0, H0⟩, ⟨%d1, H1⟩, ⟨%d2, H2⟩, ⟨%X3, H3⟩⟩
    rw [before_0 V P O c t d0, before_1 V P O c t d1, before_2 V P O c t d2]
    iapply (sound_gemm (F := F) c Set.univ (grid1.coords t) _ _ _ _ _ _ _ _ _ _
      (filled V c 0 t d0) (filled V c 1 t d1) (filled V c 2 t d2) X3 acc _)
    isplitl [H0]; · iexact H0
    isplitl [H1]; · iexact H1
    isplitl [H2]; · iexact H2
    isplitl [H3]; · iexact H3
    isplitl [Hacc]; · iexact Hacc
    iintro ⟨H0, H1, H2, H3, Hacc⟩
    isplitl [Hacc Hst Hp]
    · isplitl [Hacc]
      · iexists _; isplitr
        · ipureintro; exact hP t d0 d1 acc hacc
        iexact Hacc
      isplitl [Hst]; · iexact Hst
      iexact Hp
    isplitl [Ho]; · iexact Ho
    isplitl [H0]
    · rw [ha0, ← before_0 V P O c t (fun _ => Scalar.ofBits .bf16 0#16), before_0_irrel V P O c t _ d0, before_0]
      iexact H0
    isplitl [H1]
    · iexists d1
      rw [ha1, (win1 1).cut_fill]
      iexact H1
    isplitl [H2]
    · iexists d2
      rw [ha2, (win1 2).cut_fill]
      iexact H2
    iexists _; iexact H3
  · dsimp only
    iintro ⟨⟨⟨%acc, %hacc, Hacc⟩, Hst, Hp⟩, Ho, ⟨%d0, H0⟩, ⟨%d1, H1⟩, ⟨%d2, H2⟩, ⟨%d3, H3⟩⟩
    rw [before_0 V P O c t d0, before_1 V P O c t d1, before_2 V P O c t d2]
    iapply (sound_gemm (F := F) c Set.univ (grid1.coords t) _ _ _ _ _ _ _ _ _ _
      (filled V c 0 t d0) (filled V c 1 t d1) (filled V c 2 t d2) ((dat1 V P O c).before 3 t d3) acc _)
    isplitl [H0]; · iexact H0
    isplitl [H1]; · iexact H1
    isplitl [H2]; · iexact H2
    isplitl [H3]; · iexact H3
    isplitl [Hacc]; · iexact Hacc
    iintro ⟨H0, H1, H2, H3, Hacc⟩
    isplitl [Hacc Hst Hp]
    · isplitl [Hacc]
      · iexists _; isplitr
        · ipureintro; exact hP t d0 d1 acc hacc
        iexact Hacc
      isplitl [Hst]; · iexact Hst
      iexact Hp
    isplitl [Ho]; · iexact Ho
    isplitl [H0]
    · rw [ha0, ← before_0 V P O c t (fun _ => Scalar.ofBits .bf16 0#16), before_0_irrel V P O c t _ d0, before_0]
      iexact H0
    isplitl [H1]
    · iexists d1
      rw [ha1, (win1 1).cut_fill]
      iexact H1
    isplitl [H2]
    · iexists d2
      rw [ha2, (win1 2).cut_fill]
      iexact H2
    by_cases h3 : t.val % 4 = 3
    · have hi : idle1 3 (grid1.coords t) = false := by
        cases hh : idle1 3 (grid1.coords t)
        · rfl
        · exact absurd h3 ((idle3_iff t).mp hh)
      rw [hi]; dsimp only
      iexists _
      rw [ha3, ← hO rfl t h3 d0 d1 d2 acc hacc, (win1 3).fill_cut]
      unfold outNext
      rw [if_pos (hk.trans h3)]
      iexact H3
    · have hi : idle1 3 (grid1.coords t) = true := (idle3_iff t).mpr h3
      have hf : (win1 3).flush t = false := by
        cases hh : (win1 3).flush t
        · rfl
        · exact absurd ((flush1_3 t).mp hh) h3
      rw [hi, hf]; dsimp only
      iexists d3
      unfold outNext
      rw [if_neg (fun h => h3 (hk.symm.trans h))]
      iexact H3

/-- The library's body obligation, the output window read (`keep = true`) or forgotten. -/
theorem body_obligation1 (c : Dev nD) (keep : Bool)
    (hP : ∀ (t : Fin cfg1.N) d0 d1 acc, P t.castSucc acc →
      P t.succ (accNext (grid1.coords t) acc (filled V c 0 t d0) (filled V c 1 t d1)))
    (hO : keep = true → ∀ (t : Fin cfg1.N), t.val % 4 = 3 → ∀ d0 d1 d2 acc, P t.castSucc acc →
      (cfg1.win 3).cut (cfg1.grid.coords t) (k1_pay3 (accNext (grid1.coords t) acc (filled V c 0 t d0) (filled V c 1 t d1)) (filled V c 2 t d2))
        = (cfg1.win 3).cut (cfg1.grid.coords t) (O t)) :
    BodyObligationLoose (dat1 V P O c) (defs₀ (F := F)) Variants.none () Set.univ (fgt1 (!keep)) := fun t => by
  rw [bigSep_W1, bigSep_W1]
  cases keep
  · exact sound_body1 V P O c t false hP hO
  · exact sound_body1 V P O c t true hP hO

end Cert.KernelIdeal.Hand

end
-- ==== Proof.Run.lean ====
import proofs.«404523_j13640816132862_3_alg».proof.Proof.DequantData
import proofs.«404523_j13640816132862_3_alg».proof.Proof.GemmData
import proofs.«404523_j13640816132862_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the program's items -/

/-- Core `c`'s buffers at launch. -/
abbrev W0 (c : Dev nD) : Valuation τ sig (Elt F) := fun b => m (c, b)
/-- After the host operations before the first call: the activations reshaped, permuted and rounded, the bias as a row. -/
abbrev W1 (c : Dev nD) : Valuation τ sig (Elt F) := StableHlo.after hostOps0 (W0 m c)
/-- The same read at the TensorCore's references: what the first call is entered from. -/
abbrev V1 : (c : Dev nD) → (b : Ref sig .tc) → Buf (Elt F) ((c : Thread nD τ).loc b) := fun c b => W1 m c b
/-- After the first call: its arrays at what its write-backs leave, every other buffer as entered. -/
def W2 (c : Dev nD) : Valuation τ sig (Elt F) :=
  Pipeline.withArrays spec0 c (W1 m c) fun w => (dat0 (V1 m) c).arrAt w cfg0.N
/-- The same read at the TensorCore's references: what the second call is entered from. -/
abbrev V2 : (c : Dev nD) → (b : Ref sig .tc) → Buf (Elt F) ((c : Thread nD τ).loc b) := fun c b => W2 m c b

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb

/-- After the second call: its arrays at `Fs`, every other buffer as entered. -/
def W3 (c : Dev nD) (Fs : (w : Fin cfg1.W) → Buf (Elt F) ((cfg1.win w).arr.view.loc (c : Thread nD τ))) : Valuation τ sig (Elt F) :=
  Pipeline.withArrays spec1 c (W2 m c) Fs
/-- After the last host operation: the result reshaped to the output's shape. -/
abbrev W4 (c : Dev nD) (Fs : (w : Fin cfg1.W) → Buf (Elt F) ((cfg1.win w).arr.view.loc (c : Thread nD τ))) : Valuation τ sig (Elt F) :=
  StableHlo.after hostOps2 (W3 m c Fs)

theorem W3_arr (c : Dev nD) (Fs : (w : Fin cfg1.W) → Buf (Elt F) ((cfg1.win w).arr.view.loc (c : Thread nD τ))) (w : Fin cfg1.W) :
    W3 m c Fs (Proc.devRef .tc (Pipeline.arrRef spec1 w)) = Fs w := by
  unfold W3; exact Pipeline.withArrays_arr spec1 launch1.win.arr_inj c _ _ w
theorem W3_of_ne (c : Dev nD) (Fs : (w : Fin cfg1.W) → Buf (Elt F) ((cfg1.win w).arr.view.loc (c : Thread nD τ))) (b : Ref sig .tc)
    (hb : ∀ w, Pipeline.arrRef spec1 w ≠ b) : W3 m c Fs (Proc.devRef .tc b) = W2 m c (Proc.devRef .tc b) := by
  unfold W3; exact Pipeline.withArrays_of_ne spec1 c _ _ b hb
/-- The same read at the TensorCore's references. -/
abbrev V3 (c : Dev nD) (Fs : (w : Fin cfg1.W) → Buf (Elt F) ((cfg1.win w).arr.view.loc (c : Thread nD τ))) :
    (b : Ref sig .tc) → Buf (Elt F) ((c : Thread nD τ).loc b) := fun b => W3 m c Fs b

-- what is known of the accumulator before each point of the second call, what its output buffer holds where written back,
-- and whether the claim reads the second call's result at all
variable (P : Dev nD → Fin (cfg1.N + 1) → Vec F S2048x1024 .f32 → Prop) (O : Dev nD → Fin cfg1.N → Vec F S2048x1024 .f32) (keep : Bool)

/-! ## The proof data of the two calls, and the thread state between the items -/

/-- Each call's proof data at the contents it is entered from (a literal match, so that the library's pinned configuration
    reduces to the printed one). -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) (P c) (O c) c

/-- The windows the claim does not read: none of the first call, the second call's output unless `keep`. -/
def fgts : (p : Fin 2) → Fin (Pipeline.pin (pcfgs (F := F)) adm p).W → Bool
  | ⟨0, _⟩ => fun _ => false
  | ⟨1, _⟩ => fgt1 (!keep)

/-- The same data read relationally, the unread windows unconstrained. -/
def rdats (p : Fin 2) (c : Dev nD) : RDat τ (Elt F) Unit ℕ (UR sig nD τ) ℕ (Pipeline.pin (pcfgs (F := F)) adm p) c :=
  (pdats m P O p c).toRForget (fgts (F := F) keep p)

/-- What is known of the second call's arrays at its exit: each holds contents its write-backs may have left. -/
def Known (c : Dev nD) (Fs : (w : Fin cfg1.W) → Buf (Elt F) ((cfg1.win w).arr.view.loc (c : Thread nD τ))) : Prop :=
  ∀ w, (rdats m P O keep 1 c).ArrAt w cfg1.N (Fs w)

abbrev 𝒱₀ : Variants := Variants.none
/-- No core owes another anything. -/
abbrev L : GSem nD τ sig → Finset Unit := fun _ => ∅
abbrev lv : GSem nD τ sig → Unit → ℕ := fun _ _ => 0
/-- What rides beside the buffers: the core's generator register at some state and its dues, none. -/
abbrev R (c : Dev nD) : sProp 𝕄 := iprop((∃ r, prngReg c r) ∗ ∃ W, owes (c : Thread nD τ) (0 : CellTallies nD τ sig Unit) W)

-- a library lemma stated over the pinned configuration unifies with the printed one only when unification may unfold
-- plain definitions in a metavariable's type
set_option backward.isDefEq.respectTransparency.types false in
/-- The first call over the thread state: entered with every unscoped buffer at `W1`, left with them at `W2`. -/
def reg0 : Pipeline.RDat.RegionSeg (pcfgs (F := F)) adm (rdats m P O keep) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).toRForget
  hwaits := Pipeline.RDat.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.RDat.arrays_of_unscopedBufs (p := 0) (pcfgs (F := F)) adm (rdats m P O keep) launch0.win launch0.arr_whole c
      ((pdats m P O 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m P O keep 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m P O keep 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m P O) ((pdats m P O 0 c).share_full fun _ => rfl)
      (V1 m c) (V2 m c) ((pdats m P O 0 c).arrAt · cfg0.N) (fun w => (W2_arr m c w).symm)
      (fun b hb => W2_of_ne m c b fun w e => hb (Finset.mem_image.mpr ⟨w, Finset.mem_univ _, e⟩))
    rw [Pipeline.unscopedBufs_held] at hjoin
    rw [show (rdats m P O keep 0 c).arraysAt (Pipeline.pin (pcfgs (F := F)) adm 0).N = (pdats m P O 0 c).arrays ((pdats m P O 0 c).arrAt · cfg0.N)
      from (pdats m P O 0 c).toR_arraysAt_eq _]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

/-- When the claim reads the result array, it holds at the exit what the proof data compute. -/
theorem known_result (c : Dev nD) (hk : keep = true) (Fs : (w : Fin cfg1.W) → Buf (Elt F) ((cfg1.win w).arr.view.loc (c : Thread nD τ)))
    (h : Known m P O keep c Fs) : Fs 3 = (pdats m P O 1 c).arrAt 3 cfg1.N :=
  (Pipeline.Dat.toRForget_arrAt_iff (pdats m P O 1 c) (fgt := fgts (F := F) keep 1) (w := 3) (by subst hk; rfl) cfg1.N (Fs 3)).mp (h 3)

-- as for the first call
set_option backward.isDefEq.respectTransparency.types false in
/-- The second call over the thread state: entered with every unscoped buffer at `W2`, left with them at `W3` of SOME
    contents of its result array, of which `Known` holds. -/
def reg1
    (hP : ∀ (c : Dev nD) (t : Fin cfg1.N) d0 d1 acc, P c t.castSucc acc →
      P c t.succ (accNext (grid1.coords t) acc (filled (V2 m) c 0 t d0) (filled (V2 m) c 1 t d1)))
    (hO : keep = true → ∀ (c : Dev nD) (t : Fin cfg1.N), t.val % 4 = 3 → ∀ d0 d1 d2 acc, P c t.castSucc acc →
      (cfg1.win 3).cut (cfg1.grid.coords t) (k1_pay3 (accNext (grid1.coords t) acc (filled (V2 m) c 0 t d0) (filled (V2 m) c 1 t d1)) (filled (V2 m) c 2 t d2))
        = (cfg1.win 3).cut (cfg1.grid.coords t) (O c t))
    (hP0 : ∀ c acc, P c 0 acc) :
    Pipeline.RDat.RegionSeg (pcfgs (F := F)) adm (rdats m P O keep) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) (P c) (O c) c keep (hP c) (fun hk => hO hk c)).toRForget
  hwaits := Pipeline.RDat.hwaits_of_owed_zero _ _ _ _ L lv 1 fun _ _ => rfl
  pre c := iprop(StableHlo.held (c : Thread nD τ) (Pipeline.ucRefs τ sig) (W2 m c) ∗ R c)
  post c := iprop(∃ Fs, ⌜Known m P O keep c Fs⌝ ∗ StableHlo.held (c : Thread nD τ) (Pipeline.ucRefs τ sig) (W3 m c Fs) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.RDat.arrays_of_unscopedBufs (p := 1) (pcfgs (F := F)) adm (rdats m P O keep) launch1.win launch1.arr_whole c
      ((pdats m P O 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    have hs := scopedRest1_eq (Ix := Unit) (Val := Elt F) (Name := ℕ) (U := UR sig nD τ) (Lvl := ℕ) c
    rw [show (rdats m P O keep 1 c).Φ 0 = iprop(accHeld (P c) c 0 ∗ otherStaging c ∗ ∃ r, prngReg c r) from rfl,
      show (Pipeline.scopedRest (Pipeline.pin (pcfgs (F := F)) adm 1).spec c : sProp 𝕄) = Pipeline.scopedRest spec1 c from rfl, hs]
    unfold accHeld otherStaging
    iintro ⟨Hp, -, ⟨H0, H1, H2, H3, H4, H5, H6, H7, ⟨%f, H8⟩⟩⟩
    isplitl [H8]
    · iexists f; isplitr; · ipureintro; exact hP0 c f
      rw [owns_whole_eq]; iexists f; isplitr; · ipureintro; rfl
      iexact H8
    isplitl [H0 H1 H2 H3 H4 H5 H6 H7]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    iexact Hp
  hout c := by
    have hs := scopedRest1_eq (Ix := Unit) (Val := Elt F) (Name := ℕ) (U := UR sig nD τ) (Lvl := ℕ) c
    rw [Pipeline.ownSems0_none, show (rdats m P O keep 1 c).Φ (Fin.last _) = iprop(accHeld (P c) c (Fin.last _) ∗ otherStaging c ∗ ∃ r, prngReg c r) from rfl,
      show (Pipeline.scopedRest (Pipeline.pin (pcfgs (F := F)) adm 1).spec c : sProp 𝕄) = Pipeline.scopedRest spec1 c from rfl, hs]
    unfold accHeld otherStaging
    simp only [owns_whole_eq]
    iintro ⟨⟨%acc, -, ⟨%f, -, H8⟩⟩, ⟨H0, H1, H2, H3, H4, H5, H6, H7⟩, Hp⟩
    isplitl [Hp]; · iexact Hp
    isplitr; · iempintro
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists f; iexact H8
  hexit c := by
    classical
    have hsh : ∀ w, (pdats m P O 1 c).share w = fullShare := (pdats m P O 1 c).share_full fun _ => rfl
    unfold RDat.arraysAt
    iintro ⟨Ha, HO, HY, Hrest⟩
    ihave Ha' := (BI.bigSep_exists_pi Finset.univ (fun (w : Fin cfg1.W) F => iprop(⌜(rdats m P O keep 1 c).ArrAt w cfg1.N F⌝
        ∗ (cfg1.win w).arr.view.loc (c : Thread nD τ) ↦[(cfg1.win w).arr.view.set]{(rdats m P O keep 1 c).share w} F))) $$ Ha
    icases Ha' with ⟨%Fs, Ha⟩
    ihave Ha2 := (BI.bigSep_pure_sep Finset.univ (fun (w : Fin cfg1.W) => (rdats m P O keep 1 c).ArrAt w cfg1.N (Fs w))
        (fun w => (cfg1.win w).arr.view.loc (c : Thread nD τ) ↦[(cfg1.win w).arr.view.set]{(rdats m P O keep 1 c).share w} Fs w)) $$ Ha
    icases Ha2 with ⟨%hFs, Ha⟩
    have hK : Known m P O keep c Fs := fun w => hFs w (Finset.mem_univ _)
    have hjoin := Pipeline.unscopedBufs_of_arrays (p := 1) (pcfgs (F := F)) adm (Ix := Unit) (Name := ℕ) (U := UR sig nD τ) (Lvl := ℕ)
      launch1.win launch1.arr_whole c (pdats m P O) hsh (V2 m c) (V3 m c Fs) Fs
      (fun w => (W3_arr m c Fs w).symm)
      (fun b hb => W3_of_ne m c Fs b fun w e => hb (Finset.mem_image.mpr ⟨w, Finset.mem_univ _, e⟩))
    rw [Pipeline.unscopedBufs_held] at hjoin
    imodintro
    iexists Fs
    isplitr; · ipureintro; exact hK
    isplitl [Ha Hrest]
    · iapply hjoin
      isplitl [Ha]
      · unfold Dat.arrays; iexact Ha
      iexact Hrest
    isplitl [HY]; · iexact HY
    unfold Pipeline.RDat.owesAt Pipeline.owesWithin
    icases HO with ⟨%W, -, HO⟩; iexists W; iexact HO

end Cert.KernelIdeal.Hand

end
-- ==== Proof.RunAll.lean ====
import proofs.«404523_j13640816132862_3_alg».proof.Proof.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (P : Dev nD → Fin (cfg1.N + 1) → Vec F S2048x1024 .f32 → Prop) (O : Dev nD → Fin cfg1.N → Vec F S2048x1024 .f32) (keep : Bool)

/-- A stretch of host operations as a segment, from the buffers' contents `W`, the generator register and the dues riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last host operation, run from the second call's exit: whatever contents its arrays were left at, the operation runs
    from them. -/
def seg3 : Pipeline.HostSeg (Name := ℕ) (U := UR sig nD τ) (pcfgs (F := F)) defs₀ 𝒱₀ L lv where
  prog := StableHlo.seq hostOps2
  pre c := iprop(∃ Fs, ⌜Known m P O keep c Fs⌝ ∗ StableHlo.held (c : Thread nD τ) (Pipeline.ucRefs τ sig) (W3 m c Fs) ∗ R c)
  post c := iprop(∃ Fs, ⌜Known m P O keep c Fs⌝ ∗ StableHlo.held (c : Thread nD τ) (Pipeline.ucRefs τ sig) (W4 m c Fs) ∗ R c)
  run c {β} k K := by
    iintro ⟨Hk, Hbd, ⟨%Fs, %hFs, Hh, HR⟩, Hl⟩
    have hrun := (hseg (F := F) hostOps2 hostOps2_sub hostOps2_fresh (fun _ => W3 m c Fs)).run c k K
    dsimp only [hseg, Pipeline.HostSeg.ofOps] at hrun
    iapply hrun
    isplitl [Hk]
    · iintro ⟨Hbd, Hh, HR⟩
      iapply Hk
      isplitl [Hbd]; · iexact Hbd
      iexists Fs; isplitr; · ipureintro; exact hFs
      isplitl [Hh]; · iexact Hh
      iexact HR
    isplitl [Hbd]; · iexact Hbd
    isplitl [Hh HR]
    · isplitl [Hh]; · iexact Hh
      iexact HR
    iexact Hl

section Launch

variable (hP : ∀ (c : Dev nD) (t : Fin cfg1.N) d0 d1 acc, P c t.castSucc acc →
      P c t.succ (accNext (grid1.coords t) acc (filled (V2 m) c 0 t d0) (filled (V2 m) c 1 t d1)))
  (hO : keep = true → ∀ (c : Dev nD) (t : Fin cfg1.N), t.val % 4 = 3 → ∀ d0 d1 d2 acc, P c t.castSucc acc →
      (cfg1.win 3).cut (cfg1.grid.coords t) (k1_pay3 (accNext (grid1.coords t) acc (filled (V2 m) c 0 t d0) (filled (V2 m) c 1 t d1)) (filled (V2 m) c 2 t d2))
        = (cfg1.win 3).cut (cfg1.grid.coords t) (O c t))
  (hP0 : ∀ c acc, P c 0 acc)

/-- The program's four items in order: the host operations before the calls, the two calls, the last host operation. -/
abbrev segs : List (Pipeline.RDat.Seg (pcfgs (F := F)) adm (rdats m P O keep) () defs₀ 𝒱₀ L lv) :=
  [ .host (hseg hostOps0 hostOps0_sub hostOps0_fresh (W0 m)),
    .region (reg0 m P O keep),
    .region (reg1 m P O keep hP hO hP0),
    .host (seg3 m P O keep) ]

/-- The printed program is the run of those items. -/
theorem main_run (c : Dev nD) : main (F := F) c = Pipeline.RDat.Seg.run (segs m P O keep hP hO hP0) :=
  (main_chain c).trans (by chain_rfl)

/-- What the run leaves, on each core: the second call's arrays at some contents their write-backs may have left (`Known`), and
    every unscoped buffer at `W4` of those. -/
def Final (c : Dev nD) (s : MemSt nD τ sig (Elt F)) : Prop :=
  ∃ Fs, Known m P O keep c Fs ∧ ∀ b ∈ Pipeline.ucRefs τ sig, s.mem ((c : Thread nD τ).1, b) = W4 m c Fs b

-- the launch theorem's implicit arguments are found by unifying its conclusion with this one, which takes unfolding plain definitions
-- in a metavariable's type
set_option backward.isDefEq.respectTransparency.types false in
/-- From any memory with zero counters, every weakly fair execution of the program on the TensorCores terminates, nothing
    faulting, and leaves `Final` on every core. -/
theorem run_all
    (hP : ∀ (c : Dev nD) (t : Fin cfg1.N) d0 d1 acc, P c t.castSucc acc →
      P c t.succ (accNext (grid1.coords t) acc (filled (V2 m) c 0 t d0) (filled (V2 m) c 1 t d1)))
    (hO : keep = true → ∀ (c : Dev nD) (t : Fin cfg1.N), t.val % 4 = 3 → ∀ d0 d1 d2 acc, P c t.castSucc acc →
      (cfg1.win 3).cut (cfg1.grid.coords t) (k1_pay3 (accNext (grid1.coords t) acc (filled (V2 m) c 0 t d0) (filled (V2 m) c 1 t d1)) (filled (V2 m) c 2 t d2))
        = (cfg1.win 3).cut (cfg1.grid.coords t) (O c t))
    (hP0 : ∀ c acc, P c 0 acc) : θ_run defs (onTc (τ := τ) (main (F := F))) ⟨m, fun _ => 0, ρ⟩ (fun r => ∀ c : Dev nD, Final m P O keep c r.2) :=
  Pipeline.RDat.θ_run_regions_kit (pcfgs (F := F)) adm (rdats m P O keep) () cellOf_inj emb₁ defs₀ 𝒱₀ L lv m ρ main
    (segs m P O keep hP hO hP0)
    (fun c Q => by rw [main_run m P O keep hP hO hP0 c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(∃ Fs, ⌜Known m P O keep c Fs⌝ ∗ StableHlo.held (c : Thread nD τ) (Pipeline.ucRefs τ sig) (W4 m c Fs) ∗ ∃ r, prngReg c r))
    (hch := ⟨fun _ => .rfl, fun _ => .rfl, fun _ => .rfl, fun _ => .rfl, fun c => by
      change iprop(∃ Fs, ⌜Known m P O keep c Fs⌝ ∗ StableHlo.held (c : Thread nD τ) (Pipeline.ucRefs τ sig) (W4 m c Fs) ∗ R c) ⊢ _
      iintro ⟨%Fs, %hK, Hh, Hp, Ho⟩
      isplitl [Hh Hp]
      · iexists Fs; isplitr; · ipureintro; exact hK
        isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => Final m P O keep c s)
    (hfin := fun c s' => by
      unfold StableHlo.held
      iintro ⟨⟨%Fs, %hK, Hh, -⟩, HSI⟩
      ihave Hr := (pointsTo_read_all (Pipeline.ucRefs τ sig) (fun b => ((c : Thread nD τ).1, b)) (W4 m c Fs) s') $$ [Hh HSI]
      · isplitl [Hh] <;> iassumption
      icases Hr with ⟨%h, HSI⟩
      imodintro
      isplitr
      · ipureintro; exact ⟨Fs, hK, h⟩
      iexact HSI)
    (hQ := fun s h c => h c)

end Launch

end Cert.KernelIdeal.Hand

end
-- ==== Proof.HostArgs.lean ====
import proofs.«404523_j13640816132862_3_alg».proof.Proof.Run

set_option maxRecDepth 16384

noncomputable section

namespace Cert.KernelIdeal.Hand

open Cert.KernelIdeal Cert.KernelIdeal.Gen
open Idealize.ShloMosaic Idealize.ShloMosaic.TcCoe
open Idealize.SL.Sem

variable {F : FTy → Type} [FloatOps F]

variable (m : (ℓ : Loc nD τ sig) → Buf (Elt F) ℓ)

/-- No item of the program writes an argument: no host operation's result is one, and neither call's arrays include one that
    it writes. So at the end each argument's buffer holds its launch contents, whatever the second call's arrays hold. -/
theorem W4_main_arg0 (c : Dev nD) (Fs : (w : Fin cfg1.W) → Buf (Elt F) ((cfg1.win w).arr.view.loc (c : Thread nD τ))) :
    W4 m c Fs (Proc.devRef .tc main_arg0) = m ((c : Thread nD τ).loc main_arg0) := by
  have h4 : W4 m c Fs (Proc.devRef .tc main_arg0) = W3 m c Fs (Proc.devRef .tc main_arg0) :=
    StableHlo.after_of_writes_sub hostOps2 _ hostOps2_writes (by decide)
  have h3 : W3 m c Fs (Proc.devRef .tc main_arg0) = W2 m c (Proc.devRef .tc main_arg0) :=
    W3_of_ne m c Fs main_arg0 (by decide)
  have h2 : W2 m c (Proc.devRef .tc main_arg0) = W1 m c (Proc.devRef .tc main_arg0) :=
    W2_of_ne m c main_arg0 (by decide)
  have h1 : W1 m c (Proc.devRef .tc main_arg0) = W0 m c (Proc.devRef .tc main_arg0) :=
    StableHlo.after_of_writes_sub hostOps0 _ hostOps0_writes (by decide)
  exact h4.trans (h3.trans (h2.trans (h1.trans rfl)))
theorem W4_main_arg1 (c : Dev nD) (Fs : (w : Fin cfg1.W) → Buf (Elt F) ((cfg1.win w).arr.view.loc (c : Thread nD τ))) :
    W4 m c Fs (Proc.devRef .tc main_arg1) = m ((c : Thread nD τ).loc main_arg1) := by
  have h4 : W4 m c Fs (Proc.devRef .tc main_arg1) = W3 m c Fs (Proc.devRef .tc main_arg1) :=
    StableHlo.after_of_writes_sub hostOps2 _ hostOps2_writes (by decide)
  have h3 : W3 m c Fs (Proc.devRef .tc main_arg1) = W2 m c (Proc.devRef .tc main_arg1) :=
    W3_of_ne m c Fs main_arg1 (by decide)
  have h2 : W2 m c (Proc.devRef .tc main_arg1) = W1 m c (Proc.devRef .tc main_arg1) :=
    (W2_arr m c 0).trans (((dat0 (V1 m) c).arrAt_in 0 rfl _).trans (dat0_A (V1 m) c 0))
  have h1 : W1 m c (Proc.devRef .tc main_arg1) = W0 m c (Proc.devRef .tc main_arg1) :=
    StableHlo.after_of_writes_sub hostOps0 _ hostOps0_writes (by decide)
  exact h4.trans (h3.trans (h2.trans (h1.trans rfl)))
theorem W4_main_arg2 (c : Dev nD) (Fs : (w : Fin cfg1.W) → Buf (Elt F) ((cfg1.win w).arr.view.loc (c : Thread nD τ))) :
    W4 m c Fs (Proc.devRef .tc main_arg2) = m ((c : Thread nD τ).loc main_arg2) := by
  have h4 : W4 m c Fs (Proc.devRef .tc main_arg2) = W3 m c Fs (Proc.devRef .tc main_arg2) :=
    StableHlo.after_of_writes_sub hostOps2 _ hostOps2_writes (by decide)
  have h3 : W3 m c Fs (Proc.devRef .tc main_arg2) = W2 m c (Proc.devRef .tc main_arg2) :=
    W3_of_ne m c Fs main_arg2 (by decide)
  have h2 : W2 m c (Proc.devRef .tc main_arg2) = W1 m c (Proc.devRef .tc main_arg2) :=
    (W2_arr m c 1).trans (((dat0 (V1 m) c).arrAt_in 1 rfl _).trans (dat0_A (V1 m) c 1))
  have h1 : W1 m c (Proc.devRef .tc main_arg2) = W0 m c (Proc.devRef .tc main_arg2) :=
    StableHlo.after_of_writes_sub hostOps0 _ hostOps0_writes (by decide)
  exact h4.trans (h3.trans (h2.trans (h1.trans rfl)))
theorem W4_main_arg3 (c : Dev nD) (Fs : (w : Fin cfg1.W) → Buf (Elt F) ((cfg1.win w).arr.view.loc (c : Thread nD τ))) :
    W4 m c Fs (Proc.devRef .tc main_arg3) = m ((c : Thread nD τ).loc main_arg3) := by
  have h4 : W4 m c Fs (Proc.devRef .tc main_arg3) = W3 m c Fs (Proc.devRef .tc main_arg3) :=
    StableHlo.after_of_writes_sub hostOps2 _ hostOps2_writes (by decide)
  have h3 : W3 m c Fs (Proc.devRef .tc main_arg3) = W2 m c (Proc.devRef .tc main_arg3) :=
    W3_of_ne m c Fs main_arg3 (by decide)
  have h2 : W2 m c (Proc.devRef .tc main_arg3) = W1 m c (Proc.devRef .tc main_arg3) :=
    (W2_arr m c 2).trans (((dat0 (V1 m) c).arrAt_in 2 rfl _).trans (dat0_A (V1 m) c 2))
  have h1 : W1 m c (Proc.devRef .tc main_arg3) = W0 m c (Proc.devRef .tc main_arg3) :=
    StableHlo.after_of_writes_sub hostOps0 _ hostOps0_writes (by decide)
  exact h4.trans (h3.trans (h2.trans (h1.trans rfl)))
theorem W4_main_arg4 (c : Dev nD) (Fs : (w : Fin cfg1.W) → Buf (Elt F) ((cfg1.win w).arr.view.loc (c : Thread nD τ))) :
    W4 m c Fs (Proc.devRef .tc main_arg4) = m ((c : Thread nD τ).loc main_arg4) := by
  have h4 : W4 m c Fs (Proc.devRef .tc main_arg4) = W3 m c Fs (Proc.devRef .tc main_arg4) :=
    StableHlo.after_of_writes_sub hostOps2 _ hostOps2_writes (by decide)
  have h3 : W3 m c Fs (Proc.devRef .tc main_arg4) = W2 m c (Proc.devRef .tc main_arg4) :=
    W3_of_ne m c Fs main_arg4 (by decide)
  have h2 : W2 m c (Proc.devRef .tc main_arg4) = W1 m c (Proc.devRef .tc main_arg4) :=
    W2_of_ne m c main_arg4 (by decide)
  have h1 : W1 m c (Proc.devRef .tc main_arg4) = W0 m c (Proc.devRef .tc main_arg4) :=
    StableHlo.after_of_writes_sub hostOps0 _ hostOps0_writes (by decide)
  exact h4.trans (h3.trans (h2.trans (h1.trans rfl)))

end Cert.KernelIdeal.Hand

end
-- ==== Proof.Spec.lean ====
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev SX : Shape := ⟨3, ![4, 2048, 4096]⟩
abbrev SQ : Shape := ⟨2, ![11008, 512]⟩
abbrev SG : Shape := ⟨2, ![32, 11008]⟩
abbrev SB : Shape := ⟨1, ![11008]⟩
abbrev SO : Shape := ⟨3, ![4, 2048, 11008]⟩

/-- Nibble `s` of a packed 32-bit word, read as a real number: the word shifted right by `4 s` bits, its low four bits. -/
def nib (q : BitVec 32) (s : Nat) : EReal :=
  ((((q.sshiftRight' (BitVec.ofNat 32 (4 * s))) &&& 15#32).toInt : ℝ) : EReal)

/-- The dequantized weight of output feature `o` at input feature `d`: nibble `d % 8` of packed word `d / 8`, less the zero
    point of group `d / 128`, times that group's scale. -/
def weight (qw : SQ.Idx → BitVec 32) (sc ze : SG.Idx → EReal) (o : Fin 11008) (d : Fin 4096) : EReal :=
  (nib (qw (ix2 o ⟨d.val / 8, by have := d.isLt; omega⟩)) (d.val % 8)
      - ze (ix2 ⟨d.val / 128, by have := d.isLt; omega⟩ o))
    * sc (ix2 ⟨d.val / 128, by have := d.isLt; omega⟩ o)

/-- The layer's result: for each token the dot product of its 4096 features with the dequantized weights of output
    feature `o`, plus the bias of `o`. -/
def result (x : SX.Idx → EReal) (qw : SQ.Idx → BitVec 32) (sc ze : SG.Idx → EReal) (bias : SB.Idx → EReal) : SO.Idx → EReal :=
  fun i => (∑ d : Fin 4096, x (ix3 ⟨(i 0).val, (i 0).isLt⟩ ⟨(i 1).val, (i 1).isLt⟩ d)
      * weight qw sc ze ⟨(i 2).val, (i 2).isLt⟩ d) + bias (ix1 ⟨(i 2).val, (i 2).isLt⟩)

/-- Position `p` of the nibble-major order holds feature `d = (p % 512) * 8 + p / 512`, and `(d % 8) * 512 + d / 8` recovers `p`:
    `p / 512 < 8`, so it is the remainder of `d` by 8 and `p % 512` the quotient. -/
theorem pos_of_feature (p : ℕ) (hp : p < 4096) :
    ((p % 512 * 8 + p / 512) % 8) * 512 + (p % 512 * 8 + p / 512) / 8 = p := by
  have hq : p / 512 < 8 := by omega
  have h1 : (p % 512 * 8 + p / 512) % 8 = p / 512 := by omega
  have h2 : (p % 512 * 8 + p / 512) / 8 = p % 512 := by omega
  rw [h1, h2]; omega

/-- The reordering of the 4096 input features as a bijection: chunk `a` and offset `b` name position `a * 1024 + b` of the
    nibble-major order, and position `p` holds feature `(p % 512) * 8 + p / 512`; the inverse sends feature `d` to position
    `(d % 8) * 512 + d / 8`, split into its chunk and offset. -/
def regroup : Fin 4 × Fin 1024 ≃ Fin 4096 where
  toFun p := ⟨((p.1.val * 1024 + p.2.val) % 512) * 8 + (p.1.val * 1024 + p.2.val) / 512, by
    have := p.1.isLt; have := p.2.isLt; omega⟩
  invFun d := (⟨((d.val % 8) * 512 + d.val / 8) / 1024, by have := d.isLt; omega⟩,
    ⟨((d.val % 8) * 512 + d.val / 8) % 1024, by have := d.isLt; omega⟩)
  left_inv p := by
    obtain ⟨⟨a, ha⟩, ⟨b, hb⟩⟩ := p
    have h := pos_of_feature (a * 1024 + b) (by omega)
    simp only [Prod.mk.injEq, Fin.mk.injEq]
    constructor <;> omega
  right_inv d := by
    obtain ⟨d, hd⟩ := d
    simp only [Fin.mk.injEq]
    omega

/-- The contraction as the kernel carries it out: the 4096 input features taken in the order `s * 512 + c` (nibble-major)
    instead of `c * 8 + s`, in four consecutive chunks of 1024 added one after the other to a zero accumulator. A sum over a
    finite index set does not depend on the order or grouping of its terms. -/
theorem contraction_regrouped (f : Fin 4096 → EReal) :
    ((((0 + ∑ k : Fin 1024, f ⟨((0 * 1024 + k.val) % 512) * 8 + (0 * 1024 + k.val) / 512, by have := k.isLt; omega⟩)
        + ∑ k : Fin 1024, f ⟨((1 * 1024 + k.val) % 512) * 8 + (1 * 1024 + k.val) / 512, by have := k.isLt; omega⟩)
        + ∑ k : Fin 1024, f ⟨((2 * 1024 + k.val) % 512) * 8 + (2 * 1024 + k.val) / 512, by have := k.isLt; omega⟩)
        + ∑ k : Fin 1024, f ⟨((3 * 1024 + k.val) % 512) * 8 + (3 * 1024 + k.val) / 512, by have := k.isLt; omega⟩)
      = ∑ d : Fin 4096, f d := by
  -- A sum is unchanged by a bijection of its index set; over a product it is the iterated sum; over `Fin 4` that is four terms.
  rw [← Equiv.sum_comp regroup f, Fintype.sum_prod_type, Fin.sum_univ_four, zero_add]
  rfl

end Cert.Spec

end
-- ==== Proof.DequantValue.lean ====
import proofs.«404523_j13640816132862_3_alg».proof.Proof.DequantData
import proofs.«404523_j13640816132862_3_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx

/-! ## A group's value spread over its sixteen columns -/

/-- A `32 × 256` block of per-group values, transposed and spread so that each group fills sixteen consecutive columns,
    reads at `(r, col)` the value of group `col / 16` at row `r`. -/
theorem spread_apply {α : Type} (g : S32x256.Idx → α) (r : Fin 256) (col : Fin 512) :
    shapeCast S256x512
        (broadcastTo S256x32x16
          (shapeCast S256x32x1
            (shapeCast S256x32x1 (transpose S256x32 [1, 0] g transposes_S32x256_p1_0_S256x32) shapeCasts_S256x32_S256x32x1)
            shapeCasts_S256x32x1_S256x32x1)
          broadcasts_S256x32x1_S256x32x16)
        shapeCasts_S256x32x16_S256x512 (ix2 r col)
      = g (ix2 (⟨col.val / 16, by have := col.isLt; omega⟩ : Fin 32) r) := by
  have hc : col.val < 512 := col.isLt
  have hr : r.val < 256 := r.isLt
  refine (shapeCast_apply _ shapeCasts_S256x32x16_S256x512 (ix2 r col)
    (ix3 r (⟨col.val / 16, by omega⟩ : Fin 32) (⟨col.val % 16, by omega⟩ : Fin 16)) ?_).trans ?_
  · rw [Shape.rowMajor_val_three, Shape.rowMajor_val_two]
    show (r.val * 32 + col.val / 16) * 16 + col.val % 16 = r.val * 512 + col.val
    omega
  refine (broadcastTo_apply _ broadcasts_S256x32x1_S256x32x16 _
    (ix3 r (⟨col.val / 16, by omega⟩ : Fin 32) (0 : Fin 1)) ?_).trans ?_
  · intro a
    match a with
    | ⟨0, _⟩ => rfl
    | ⟨1, _⟩ => rfl
    | ⟨2, _⟩ => rfl
  rw [shapeCast_self]
  refine (shapeCast_apply _ shapeCasts_S256x32_S256x32x1 _ (ix2 r (⟨col.val / 16, by omega⟩ : Fin 32)) ?_).trans ?_
  · rw [Shape.rowMajor_val_three, Shape.rowMajor_val_two]
    show r.val * 32 + col.val / 16 = (r.val * 32 + col.val / 16) * 1 + 0
    omega
  exact transpose_ix2_apply g transposes_S32x256_p1_0_S256x32 r _

/-! ## The shift amount and the nibble -/

/-- At trip `k` of the eight the shift amount is the word `4 k`, below the word size. -/
theorem shift_amt (k : Fin k0_t1_loop.trips) :
    Scalar.muli (Scf.iv 0#32 1#32 k) 4#32 = BitVec.ofNat 32 (4 * k.val) ∧ (BitVec.ofNat 32 (4 * k.val)).toNat < 32 :=
  (by decide +kernel : ∀ k : Fin k0_t1_loop.trips,
    Scalar.muli (Scf.iv 0#32 1#32 k) 4#32 = BitVec.ofNat 32 (4 * k.val) ∧ (BitVec.ofNat 32 (4 * k.val)).toNat < 32) k

/-- The arithmetic shift of a word by trip `k`'s amount, masked to four bits and read as a real number, is nibble `k`. -/
theorem nib_eq (w : BitVec 32) (k : Fin k0_t1_loop.trips) :
    (FloatOps.sitofp (F := Ideal) .f32
        (IntOp.andi (IntOp.shrsi .vector w (Scalar.muli (Scf.iv 0#32 1#32 k) 4#32)) 15#32) : EReal)
      = Cert.Spec.nib w k.val := by
  obtain ⟨e, hlt⟩ := shift_amt k
  rw [e]
  unfold IntOp.shrsi
  rw [if_pos hlt]
  rfl

/-! ## The payload at an index -/

/-- Trip `k`'s payload at `(r, col)`: nibble `k` of the packed word there, less the zero point of group `col / 16` at row
    `r`, times that group's scale; the last rounding is the identity over the extended reals. -/
theorem pay_apply (sc ze : Vec Ideal S32x256 .f32) (q : Vec Ideal S256x512 .i32) (k : Fin k0_t1_loop.trips)
    (r : Fin 256) (col : Fin 512) :
    k0_pay1 (F := Ideal) sc ze q k (ix2 r col)
      = (Cert.Spec.nib (q (ix2 r col)) k.val - ze (ix2 (⟨col.val / 16, by have := col.isLt; omega⟩ : Fin 32) r))
          * sc (ix2 (⟨col.val / 16, by have := col.isLt; omega⟩ : Fin 32) r) := by
  unfold k0_pay1
  rw [truncf_apply, mulf_apply, subf_apply, spread_apply sc r col, spread_apply ze r col]
  refine congrArg (fun x => (x - ze (ix2 (⟨col.val / 16, by have := col.isLt; omega⟩ : Fin 32) r))
      * sc (ix2 (⟨col.val / 16, by have := col.isLt; omega⟩ : Fin 32) r)) ?_
  exact nib_eq (q (ix2 r col)) k

/-! ## The input blocks read off their arrays -/

/-- The packed words' block index at grid point `t` is `(t, 0)`. -/
theorem q_index (t : Fin cfg0.N) : win0_0.index t (0 : Fin 2) = t.val ∧ win0_0.index t (1 : Fin 2) = 0 :=
  (by decide +kernel : ∀ t : Fin grid0.N, win0_0.index t (0 : Fin 2) = t.val ∧ win0_0.index t (1 : Fin 2) = 0) t

/-- The scales' block index at grid point `t` is `(0, t)`. -/
theorem sc_index (t : Fin cfg0.N) : win0_1.index t (0 : Fin 2) = 0 ∧ win0_1.index t (1 : Fin 2) = t.val :=
  (by decide +kernel : ∀ t : Fin grid0.N, win0_1.index t (0 : Fin 2) = 0 ∧ win0_1.index t (1 : Fin 2) = t.val) t

/-- The zero points' block index at grid point `t` is `(0, t)`. -/
theorem ze_index (t : Fin cfg0.N) : win0_2.index t (0 : Fin 2) = 0 ∧ win0_2.index t (1 : Fin 2) = t.val :=
  (by decide +kernel : ∀ t : Fin grid0.N, win0_2.index t (0 : Fin 2) = 0 ∧ win0_2.index t (1 : Fin 2) = t.val) t

variable (V : (c : Dev nD) → (b : Ref sig .tc) → Buf (Elt Ideal) ((c : Thread nD τ).loc b))

/-- Row `r` of the packed words' block at grid point `t` is row `256 t + r` of the packed array. -/
theorem q_blk_apply (c : Dev nD) (t : Fin cfg0.N) (r : Fin 256) (col : Fin 512) (o : Fin 11008)
    (ho : o.val = t.val * 256 + r.val) :
    iblk0 (F := Ideal) V c 0 t (ix2 r col) = V c main_arg1 (ix2 o col) := by
  obtain ⟨e0, e1⟩ := q_index t
  show V c main_arg1 (((cfg0.win 0).blk t).view.emb (ix2 r col)) = V c main_arg1 (ix2 o col)
  refine congrArg (V c main_arg1) (funext fun a => Fin.ext ?_)
  match a with
  | ⟨0, _⟩ =>
    show win0_0.index t (0 : Fin 2) * 256 + 1 * r.val = o.val
    rw [e0]; omega
  | ⟨1, _⟩ =>
    show win0_0.index t (1 : Fin 2) * 512 + 1 * col.val = col.val
    rw [e1]; omega

/-- Column `r` of the scales' block at grid point `t` is column `256 t + r` of the scale array. -/
theorem sc_blk_apply (c : Dev nD) (t : Fin cfg0.N) (g : Fin 32) (r : Fin 256) (o : Fin 11008)
    (ho : o.val = t.val * 256 + r.val) :
    iblk0 (F := Ideal) V c 1 t (ix2 g r) = V c main_arg2 (ix2 g o) := by
  obtain ⟨e0, e1⟩ := sc_index t
  show V c main_arg2 (((cfg0.win 1).blk t).view.emb (ix2 g r)) = V c main_arg2 (ix2 g o)
  refine congrArg (V c main_arg2) (funext fun a => Fin.ext ?_)
  match a with
  | ⟨0, _⟩ =>
    show win0_1.index t (0 : Fin 2) * 32 + 1 * g.val = g.val
    rw [e0]; omega
  | ⟨1, _⟩ =>
    show win0_1.index t (1 : Fin 2) * 256 + 1 * r.val = o.val
    rw [e1]; omega

/-- Column `r` of the zero points' block at grid point `t` is column `256 t + r` of the zero-point array. -/
theorem ze_blk_apply (c : Dev nD) (t : Fin cfg0.N) (g : Fin 32) (r : Fin 256) (o : Fin 11008)
    (ho : o.val = t.val * 256 + r.val) :
    iblk0 (F := Ideal) V c 2 t (ix2 g r) = V c main_arg3 (ix2 g o) := by
  obtain ⟨e0, e1⟩ := ze_index t
  show V c main_arg3 (((cfg0.win 2).blk t).view.emb (ix2 g r)) = V c main_arg3 (ix2 g o)
  refine congrArg (V c main_arg3) (funext fun a => Fin.ext ?_)
  match a with
  | ⟨0, _⟩ =>
    show win0_2.index t (0 : Fin 2) * 32 + 1 * g.val = g.val
    rw [e0]; omega
  | ⟨1, _⟩ =>
    show win0_2.index t (1 : Fin 2) * 256 + 1 * r.val = o.val
    rw [e1]; omega

/-! ## The specification's weight with the input feature split into word and nibble -/

/-- Input feature `col * 8 + s` (`s < 8`) lies in packed word `col`, nibble `s`, group `col / 16`:
    `(8 col + s) / 8 = col`, `(8 col + s) % 8 = s`, `(8 col + s) / 128 = col / 16`. -/
theorem weight_split (qw : Cert.Spec.SQ.Idx → BitVec 32) (sc ze : Cert.Spec.SG.Idx → EReal) (o : Fin 11008) (s : Fin 8)
    (col : Fin 512) :
    Cert.Spec.weight qw sc ze o ⟨col.val * 8 + s.val, by have := s.isLt; have := col.isLt; omega⟩
      = (Cert.Spec.nib (qw (ix2 o col)) s.val - ze (ix2 (⟨col.val / 16, by have := col.isLt; omega⟩ : Fin 32) o))
          * sc (ix2 (⟨col.val / 16, by have := col.isLt; omega⟩ : Fin 32) o) := by
  have hs : s.val < 8 := s.isLt
  have hc : col.val < 512 := col.isLt
  have h8 : (col.val * 8 + s.val) / 8 = col.val := by omega
  have hm : (col.val * 8 + s.val) % 8 = s.val := by omega
  have hg : (col.val * 8 + s.val) / 128 = col.val / 16 := by omega
  unfold Cert.Spec.weight
  simp only [h8, hm, hg, Fin.eta]

/-! ## The unpacked array at an index -/

/-- Over the extended reals the unpacked array holds, at row `o` and column `s * 512 + col`, the dequantized weight of
    output feature `o` at input feature `col * 8 + s`: nibble `s` of packed word `col`, less the zero point of group
    `col / 16` (which is group `(col * 8 + s) / 128`), times that group's scale; the final rounding to the narrower float
    format is the identity over the reals. -/
theorem wArr_apply (c : Dev nD) (o : Fin 11008) (s : Fin 8) (col : Fin 512) :
    wArr (F := Ideal) V c (ix2 o ⟨s.val * 512 + col.val, by have := s.isLt; have := col.isLt; omega⟩)
      = Cert.Spec.weight (V c main_arg1) (V c main_arg2) (V c main_arg3) o
          ⟨col.val * 8 + s.val, by have := s.isLt; have := col.isLt; omega⟩ := by
  have hs : s.val < 8 := s.isLt
  have hc : col.val < 512 := col.isLt
  have ho : o.val < 11008 := o.isLt
  have ht8 : k0_t1_loop.trips = 8 := by decide
  -- the grid point whose block holds row `o`, and the row inside that block
  obtain ⟨t, ht⟩ : ∃ t : Fin cfg0.N, t.val = o.val / 256 :=
    ⟨⟨o.val / 256, by show o.val / 256 < grid0.N; rw [N_0]; omega⟩, rfl⟩
  obtain ⟨r, hr⟩ : ∃ r : Fin 256, r.val = o.val % 256 := ⟨⟨o.val % 256, by omega⟩, rfl⟩
  have hor : o.val = t.val * 256 + r.val := by omega
  rw [weight_split]
  refine (wArr_of_row V c t _ (ix2 r (⟨s.val * 512 + col.val, by omega⟩ : Fin 4096)) hor rfl).trans ?_
  unfold dqOut
  refine (dqPay_congr _ _ _ (k := ⟨s.val, by omega⟩) (Fin.ext ?_) (x := ix2 r col) (funext fun a => Fin.ext ?_)).trans ?_
  · show (s.val * 512 + col.val) / 512 = s.val
    omega
  · match a with
    | ⟨0, _⟩ => rfl
    | ⟨1, _⟩ =>
      show (s.val * 512 + col.val) % 512 = col.val
      omega
  refine (pay_apply (iblk0 V c 1 t) (iblk0 V c 2 t) (iblk0 V c 0 t) ⟨s.val, by omega⟩ r col).trans ?_
  rw [q_blk_apply V c t r col o hor, sc_blk_apply V c t _ r o hor, ze_blk_apply V c t _ r o hor]

end Cert.KernelIdeal.Hand

end
-- ==== Proof.GemmValueDefs.lean ====
import proofs.«404523_j13640816132862_3_alg».proof.Proof.GemmData
import proofs.«404523_j13640816132862_3_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The staged operands of the matrix-product call as it finds them: the permuted activations, the unpacked weights, the bias row. -/
abbrev xq (c : Dev nD) : S8192x4096.Idx → EReal := V c main_v4
abbrev wq (c : Dev nD) : S11008x4096.Idx → EReal := V c main_v6
abbrev bq (c : Dev nD) : S1x11008.Idx → EReal := V c main_v5

/-- One chunk of the contraction: the 1024 products of row `m` of the left operand and row `o` of the right operand over
    columns `k * 1024 ‥ k * 1024 + 1023`. -/
def chunk (c : Dev nD) (k : Nat) (m : Fin 8192) (o : Fin 11008) : EReal :=
  ∑ kk : Fin 1024, xq V c (ix2 m ⟨(k % 4) * 1024 + kk.val, by have := kk.isLt; have := Nat.mod_lt k (show 0 < 4 by decide); omega⟩)
    * wq V c (ix2 o ⟨(k % 4) * 1024 + kk.val, by have := kk.isLt; have := Nat.mod_lt k (show 0 < 4 by decide); omega⟩)

/-- The accumulator after `k` chunks, from zero. -/
def psum (c : Dev nD) : Nat → Fin 8192 → Fin 11008 → EReal
  | 0, _, _ => 0
  | k + 1, m, o => psum c k m o + chunk V c k m o

/-- What the matrix-product call leaves in its result array: the four chunks accumulated, plus the bias row. -/
def gemmOut (c : Dev nD) : Buf (Elt Ideal) ((c : Thread nD τ).loc main_v7) := fun (j : S8192x11008.Idx) =>
  psum V c 4 ⟨(j 0).val, (j 0).isLt⟩ ⟨(j 1).val, (j 1).isLt⟩ + bq V c (ix2 (0 : Fin 1) ⟨(j 1).val, (j 1).isLt⟩)

/-- What is known of the accumulator scratch before grid point `t` (row block `t / 44`, column block `(t / 4) % 11`,
    contraction step `t % 4`): past the first step of a run it holds the partial sums, on the columns inside the array. -/
def AccOk (c : Dev nD) (t : Fin (cfg1.N + 1)) (acc : Vec Ideal S2048x1024 .f32) : Prop :=
  t.val % 4 ≠ 0 → ∀ (p : Fin 2048) (q : Fin 1024) (hq : ((t.val / 4) % 11) * 1024 + q.val < 11008),
    acc (ix2 p q) = psum V c (t.val % 4)
      ⟨((t.val / 44) % 4) * 2048 + p.val, by have := p.isLt; have := Nat.mod_lt (t.val / 44) (show 0 < 4 by decide); omega⟩
      ⟨((t.val / 4) % 11) * 1024 + q.val, hq⟩

/-- What the output buffer is to hold where it is written back: the result array's block, on the part inside the array. -/
def Oout (c : Dev nD) (t : Fin cfg1.N) : Vec Ideal S2048x1024 .f32 :=
  (cfg1.win 3).fill (cfg1.grid.coords t) (fun _ => (0 : EReal)) (((cfg1.win 3).blk t).view.read (Elt Ideal) (gemmOut V c))

theorem accOk_zero (c : Dev nD) (acc : Vec Ideal S2048x1024 .f32) : AccOk V c 0 acc := fun h => absurd rfl h

end Cert.KernelIdeal.Hand

end
-- ==== Proof.HostValues.lean ====
import proofs.«404523_j13640816132862_3_alg».proof.Proof.Run
import proofs.«404523_j13640816132862_3_alg».proof.Proof.DequantValue
import proofs.«404523_j13640816132862_3_alg».proof.Proof.GemmValueDefs
import proofs.«404523_j13640816132862_3_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ)

/-! ## What the host operations before the first call leave -/

/-- The activations' buffer after the host operations: the launch activations flattened to rows, the features split into
    word and nibble, the two swapped, flattened again, and rounded. -/
theorem W1_main_v4 (c : Dev nD) :
    (W1 m c (Proc.devRef .tc main_v4) : S8192x4096.Idx → EReal)
      = truncf (F := Ideal) .bf16 (shapeCast S8192x4096 (transpose S8192x8x512 [0, 2, 1]
          (shapeCast S8192x512x8 (shapeCast S8192x4096 (m ((c : Thread nD τ).loc main_arg0) : S4x2048x4096.Idx → EReal)
            shapeCasts_S4x2048x4096_S8192x4096) shapeCasts_S8192x4096_S8192x512x8)
          transposes_S8192x512x8_S8192x8x512_0_2_1) shapeCasts_S8192x8x512_S8192x4096) bitsLt_bf16_f32 := by
  show StableHlo.after hostOps0 (W0 m c) (Proc.devRef .tc main_v4) = _
  after_results
  rfl

/-- The bias row's buffer after the host operations: the launch bias as a one-row matrix. -/
theorem W1_main_v5 (c : Dev nD) :
    (W1 m c (Proc.devRef .tc main_v5) : S1x11008.Idx → EReal)
      = shapeCast S1x11008 (m ((c : Thread nD τ).loc main_arg4) : S11008.Idx → EReal) shapeCasts_S11008_S1x11008 := by
  show StableHlo.after hostOps0 (W0 m c) (Proc.devRef .tc main_v5) = _
  after_results
  rfl

/-- The host operations before the first call write no argument. -/
theorem V1_main_arg1 (c : Dev nD) : V1 m c main_arg1 = m ((c : Thread nD τ).loc main_arg1) :=
  (StableHlo.after_of_writes_sub hostOps0 _ hostOps0_writes (by decide)).trans rfl
theorem V1_main_arg2 (c : Dev nD) : V1 m c main_arg2 = m ((c : Thread nD τ).loc main_arg2) :=
  (StableHlo.after_of_writes_sub hostOps0 _ hostOps0_writes (by decide)).trans rfl
theorem V1_main_arg3 (c : Dev nD) : V1 m c main_arg3 = m ((c : Thread nD τ).loc main_arg3) :=
  (StableHlo.after_of_writes_sub hostOps0 _ hostOps0_writes (by decide)).trans rfl

/-! ## The second call's operands -/

/-- The left operand the second call finds: the activations, flattened to rows, with the 4096 features reordered from
    `col * 8 + s` to `s * 512 + col` by the host's reshape, transpose and reshape; the rounding to the narrower format is the
    identity over the reals. -/
theorem xq_entry (c : Dev nD) (M : Fin 8192) (k' : Fin 4096) :
    xq (V2 m) c (ix2 M k')
      = (m ((c : Thread nD τ).loc main_arg0) : S4x2048x4096.Idx → EReal)
          (ix3 ⟨M.val / 2048, by have := M.isLt; omega⟩ ⟨M.val % 2048, Nat.mod_lt _ (by decide)⟩
            ⟨(k'.val % 512) * 8 + k'.val / 512, by have := k'.isLt; omega⟩) := by
  have hM : M.val < 8192 := M.isLt
  have hk : k'.val < 4096 := k'.isLt
  -- the first call does not touch the activations
  have e2 : V2 m c main_v4 = W1 m c (Proc.devRef .tc main_v4) := W2_of_ne m c main_v4 (by decide)
  show V2 m c main_v4 (ix2 M k') = _
  rw [e2, W1_main_v4, truncf_apply]
  -- column `k'` of the flattened array is nibble `k' / 512`, word `k' % 512`
  refine (shapeCast_apply _ shapeCasts_S8192x8x512_S8192x4096 (ix2 M k')
    (ix3 M (⟨k'.val / 512, by omega⟩ : Fin 8) (⟨k'.val % 512, by omega⟩ : Fin 512)) ?_).trans ?_
  · rw [Shape.rowMajor_val_three, Shape.rowMajor_val_two]
    show (M.val * 8 + k'.val / 512) * 512 + k'.val % 512 = M.val * 4096 + k'.val
    omega
  -- the transpose swaps nibble and word
  refine (transpose_ix3_021_apply _ transposes_S8192x512x8_S8192x8x512_0_2_1 M _ _).trans ?_
  -- word `col`, nibble `s` is feature `col * 8 + s`
  refine (shapeCast_apply _ shapeCasts_S8192x4096_S8192x512x8 _
    (ix2 M (⟨(k'.val % 512) * 8 + k'.val / 512, by omega⟩ : Fin 4096)) ?_).trans ?_
  · rw [Shape.rowMajor_val_three, Shape.rowMajor_val_two]
    show M.val * 4096 + ((k'.val % 512) * 8 + k'.val / 512) = (M.val * 512 + k'.val % 512) * 8 + k'.val / 512
    omega
  -- row `M` of the flattened activations is batch `M / 2048`, position `M % 2048`
  refine shapeCast_apply _ shapeCasts_S4x2048x4096_S8192x4096 _ _ ?_
  rw [Shape.rowMajor_val_three, Shape.rowMajor_val_two]
  show (M.val / 2048 * 2048 + M.val % 2048) * 4096 + ((k'.val % 512) * 8 + k'.val / 512)
    = M.val * 4096 + ((k'.val % 512) * 8 + k'.val / 512)
  omega

/-- The right operand the second call finds is what the first call wrote: the dequantized weights, column `s * 512 + col`
    holding input feature `col * 8 + s`. -/
theorem wq_entry (c : Dev nD) (o : Fin 11008) (k' : Fin 4096) :
    wq (V2 m) c (ix2 o k')
      = Cert.Spec.weight (m ((c : Thread nD τ).loc main_arg1)) (m ((c : Thread nD τ).loc main_arg2)) (m ((c : Thread nD τ).loc main_arg3)) o
          ⟨(k'.val % 512) * 8 + k'.val / 512, by have := k'.isLt; omega⟩ := by
  have hk : k'.val < 4096 := k'.isLt
  -- the first call's result array after its write-backs is the unpacked weights
  have e2 : V2 m c main_v6 = wArr (V1 m) c := (W2_arr m c 3).trans (final0 (V1 m) c)
  -- column `k'` is nibble `k' / 512`, word `k' % 512`
  have hcol : k' = (⟨(k'.val / 512) * 512 + k'.val % 512, by omega⟩ : Fin 4096) := Fin.ext (by show k'.val = (k'.val / 512) * 512 + k'.val % 512; omega)
  show V2 m c main_v6 (ix2 o k') = _
  rw [e2]
  refine (congrArg (fun q => wArr (V1 m) c (ix2 o q)) hcol).trans ?_
  refine (wArr_apply (V1 m) c o (⟨k'.val / 512, by omega⟩ : Fin 8) (⟨k'.val % 512, by omega⟩ : Fin 512)).trans ?_
  rw [V1_main_arg1, V1_main_arg2, V1_main_arg3]

/-- The bias row the second call finds is the bias. -/
theorem bq_entry (c : Dev nD) (o : Fin 11008) :
    bq (V2 m) c (ix2 (0 : Fin 1) o) = (m ((c : Thread nD τ).loc main_arg4) : S11008.Idx → EReal) (ix1 o) := by
  -- the first call does not touch the bias row
  have e2 : V2 m c main_v5 = W1 m c (Proc.devRef .tc main_v5) := W2_of_ne m c main_v5 (by decide)
  show V2 m c main_v5 (ix2 (0 : Fin 1) o) = _
  rw [e2, W1_main_v5]
  exact shapeCast_a_1a_apply _ shapeCasts_S11008_S1x11008 0 o

/-! ## The program's result -/

/-- The program's result buffer at the end is the second call's result array, its rows split back into batch and position. -/
theorem W4_result (c : Dev nD) (Fs : (w : Fin cfg1.W) → Buf (Elt Ideal) ((cfg1.win w).arr.view.loc (c : Thread nD τ)))
    (i : S4x2048x11008.Idx) :
    (W4 m c Fs (Proc.devRef .tc main_v8) : S4x2048x11008.Idx → EReal) i
      = (Fs 3 : S8192x11008.Idx → EReal)
          (ix2 ⟨(i 0).val * 2048 + (i 1).val, by have h0 : (i 0).val < 4 := (i 0).isLt; have h1 : (i 1).val < 2048 := (i 1).isLt; omega⟩
            ⟨(i 2).val, (i 2).isLt⟩) := by
  have h0 : (i 0).val < 4 := (i 0).isLt
  have h1 : (i 1).val < 2048 := (i 1).isLt
  -- the last host operation reshapes the second call's result array
  have e4 : (W4 m c Fs (Proc.devRef .tc main_v8) : S4x2048x11008.Idx → EReal)
      = shapeCast S4x2048x11008 (W3 m c Fs (Proc.devRef .tc main_v7) : S8192x11008.Idx → EReal)
          shapeCasts_S8192x11008_S4x2048x11008 := by
    show StableHlo.after hostOps2 (W3 m c Fs) (Proc.devRef .tc main_v8) = _
    after_results
    rfl
  have e3 : (W3 m c Fs (Proc.devRef .tc main_v7) : S8192x11008.Idx → EReal) = Fs 3 := W3_arr m c Fs 3
  rw [e4, e3]
  refine shapeCast_apply _ shapeCasts_S8192x11008_S4x2048x11008 i _ ?_
  rw [Shape.rowMajor_val_three, Shape.rowMajor_val_two]
  show ((i 0).val * 2048 + (i 1).val) * 11008 + (i 2).val = ((i 0).val * 2048 + (i 1).val) * 11008 + (i 2).val
  rfl

end Cert.KernelIdeal.Hand

end
-- ==== Proof.GemmAcc.lean ====
import proofs.«404523_j13640816132862_3_alg».proof.Proof.GemmValueDefs
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-! ## The schedule in closed form -/

theorem coord0 : ∀ t : Fin cfg1.N, ((grid1.coords t) 0).val = (t.val / 44) % 4 :=
  (by decide +kernel : ∀ t : Fin grid1.N, ((grid1.coords t) 0).val = (t.val / 44) % 4)

theorem coord1 : ∀ t : Fin cfg1.N, ((grid1.coords t) 1).val = (t.val / 4) % 11 :=
  (by decide +kernel : ∀ t : Fin grid1.N, ((grid1.coords t) 1).val = (t.val / 4) % 11)

/-- The block indices of the four windows at point t. -/
theorem idx_facts : ∀ t : Fin cfg1.N,
    win1_0.index t (0 : Fin 2) = (t.val / 44) % 4 ∧ win1_0.index t (1 : Fin 2) = t.val % 4
    ∧ win1_1.index t (0 : Fin 2) = (t.val / 4) % 11 ∧ win1_1.index t (1 : Fin 2) = t.val % 4
    ∧ win1_2.index t (0 : Fin 2) = 0 ∧ win1_2.index t (1 : Fin 2) = (t.val / 4) % 11
    ∧ win1_3.index t (0 : Fin 2) = (t.val / 44) % 4 ∧ win1_3.index t (1 : Fin 2) = (t.val / 4) % 11 :=
  (by decide +kernel : ∀ t : Fin grid1.N, _)

/-- The sizes of the parts of the blocks inside the arrays. -/
theorem xsize_facts : ∀ t : Fin cfg1.N,
    win1_1.xsize (grid1.coords t) (0 : Fin 2) = (if (t.val / 4) % 11 = 10 then 768 else 1024)
    ∧ win1_1.xsize (grid1.coords t) (1 : Fin 2) = 1024
    ∧ win1_2.xsize (grid1.coords t) (0 : Fin 2) = 1
    ∧ win1_2.xsize (grid1.coords t) (1 : Fin 2) = (if (t.val / 4) % 11 = 10 then 768 else 1024)
    ∧ win1_3.xsize (grid1.coords t) (0 : Fin 2) = 2048
    ∧ win1_3.xsize (grid1.coords t) (1 : Fin 2) = (if (t.val / 4) % 11 = 10 then 768 else 1024) :=
  (by decide +kernel : ∀ t : Fin grid1.N, _)

/-! ## The staged blocks read at an index -/

/-- The left operand's block is not clipped: every entry of the staging buffer is the array's. -/
theorem filled0_apply (c : Dev nD) (t : Fin cfg1.N) (d0) (p : Fin 2048) (kk : Fin 1024) :
    filled V c 0 t d0 (ix2 p kk)
      = xq V c (ix2 (⟨((t.val / 44) % 4) * 2048 + p.val, by have := p.isLt; omega⟩ : Fin 8192)
          (⟨(t.val % 4) * 1024 + kk.val, by have := kk.isLt; omega⟩ : Fin 4096)) := by
  obtain ⟨e0, e1, -⟩ := idx_facts t
  show (cfg1.win 0).fill (cfg1.grid.coords t) d0 (iblk1 V c 0 t) (ix2 p kk) = _
  unfold Window.fill
  rw [dif_pos (show (cfg1.win 0).moved (cfg1.grid.coords t) (ix2 p kk) = true from rfl)]
  unfold iblk1
  rw [View.read_apply]
  show V c main_v4 (((cfg1.win 0).blk t).view.emb _) = V c main_v4 _
  refine congrArg (V c main_v4) (funext fun a => Fin.ext ?_)
  match a with
  | ⟨0, _⟩ => show win1_0.index t (0 : Fin 2) * 2048 + 1 * p.val = _; rw [e0]; show _ = ((t.val / 44) % 4) * 2048 + p.val; omega
  | ⟨1, _⟩ => show win1_0.index t (1 : Fin 2) * 1024 + 1 * kk.val = _; rw [e1]; show _ = (t.val % 4) * 1024 + kk.val; omega

/-- The right operand's block, on the rows inside the array: the array's rows, whatever fills the rest of the buffer. -/
theorem filled1_apply (c : Dev nD) (t : Fin cfg1.N) (d1) (q kk : Fin 1024) (hq : ((t.val / 4) % 11) * 1024 + q.val < 11008) :
    filled V c 1 t d1 (ix2 q kk)
      = wq V c (ix2 (⟨((t.val / 4) % 11) * 1024 + q.val, hq⟩ : Fin 11008)
          (⟨(t.val % 4) * 1024 + kk.val, by have := kk.isLt; omega⟩ : Fin 4096)) := by
  obtain ⟨-, -, e0, e1, -⟩ := idx_facts t
  obtain ⟨x0, x1, -⟩ := xsize_facts t
  have hm : (cfg1.win 1).moved (cfg1.grid.coords t) (ix2 q kk) = true := by
    rw [Window.moved_iff]
    intro a
    match a with
    | ⟨0, _⟩ => show q.val < win1_1.xsize (grid1.coords t) (0 : Fin 2); rw [x0]; have := q.isLt; split <;> omega
    | ⟨1, _⟩ => show kk.val < win1_1.xsize (grid1.coords t) (1 : Fin 2); rw [x1]; exact kk.isLt
  show (cfg1.win 1).fill (cfg1.grid.coords t) d1 (iblk1 V c 1 t) (ix2 q kk) = _
  unfold Window.fill
  rw [dif_pos hm]
  unfold iblk1
  rw [View.read_apply]
  show V c main_v6 (((cfg1.win 1).blk t).view.emb _) = V c main_v6 _
  refine congrArg (V c main_v6) (funext fun a => Fin.ext ?_)
  match a with
  | ⟨0, _⟩ => show win1_1.index t (0 : Fin 2) * 1024 + 1 * q.val = _; rw [e0]; show _ = ((t.val / 4) % 11) * 1024 + q.val; omega
  | ⟨1, _⟩ => show win1_1.index t (1 : Fin 2) * 1024 + 1 * kk.val = _; rw [e1]; show _ = (t.val % 4) * 1024 + kk.val; omega

/-- The bias row's block, on the columns inside the array. -/
theorem filled2_apply (c : Dev nD) (t : Fin cfg1.N) (d2) (q : Fin 1024) (hq : ((t.val / 4) % 11) * 1024 + q.val < 11008) :
    filled V c 2 t d2 (ix2 (0 : Fin 1) q)
      = bq V c (ix2 (0 : Fin 1) (⟨((t.val / 4) % 11) * 1024 + q.val, hq⟩ : Fin 11008)) := by
  obtain ⟨-, -, -, -, e0, e1, -⟩ := idx_facts t
  obtain ⟨-, -, x0, x1, -⟩ := xsize_facts t
  have hm : (cfg1.win 2).moved (cfg1.grid.coords t) (ix2 (0 : Fin 1) q) = true := by
    rw [Window.moved_iff]
    intro a
    match a with
    | ⟨0, _⟩ => show (0 : Nat) < win1_2.xsize (grid1.coords t) (0 : Fin 2); rw [x0]; omega
    | ⟨1, _⟩ => show q.val < win1_2.xsize (grid1.coords t) (1 : Fin 2); rw [x1]; have := q.isLt; split <;> omega
  show (cfg1.win 2).fill (cfg1.grid.coords t) d2 (iblk1 V c 2 t) (ix2 (0 : Fin 1) q) = _
  unfold Window.fill
  rw [dif_pos hm]
  unfold iblk1
  rw [View.read_apply]
  show V c main_v5 (((cfg1.win 2).blk t).view.emb _) = V c main_v5 _
  refine congrArg (V c main_v5) (funext fun a => Fin.ext ?_)
  match a with
  | ⟨0, _⟩ => show win1_2.index t (0 : Fin 2) * 1 + 1 * 0 = _; rw [e0]; rfl
  | ⟨1, _⟩ => show win1_2.index t (1 : Fin 2) * 1024 + 1 * q.val = _; rw [e1]; show _ = ((t.val / 4) % 11) * 1024 + q.val; omega

/-! ## The payloads read at an index

Where each operand index of the matrix product sits: the left operand at the output's row and the contraction index, the right
operand at the output's column and the contraction index. -/

theorem lhs_mm_0 (i : S2048x1024.Idx) (q : dot_S2048x1024_S1024x1024_S2048x1024_1_1_0_0_n_n.contr.Idx) :
    (dot_S2048x1024_S1024x1024_S2048x1024_1_1_0_0_n_n.lhsIdx i q 0).val = (i 0).val := by
  unfold DotDims.lhsIdx
  rw [dif_neg (show ¬(0 : Fin S2048x1024.rank) ∈ dot_S2048x1024_S1024x1024_S2048x1024_1_1_0_0_n_n.lhsBatch by decide), dif_pos (show (0 : Fin S2048x1024.rank) ∈ dot_S2048x1024_S1024x1024_S2048x1024_1_1_0_0_n_n.lhsNonContracting by decide)]
  rfl
theorem lhs_mm_1 (i : S2048x1024.Idx) (q : dot_S2048x1024_S1024x1024_S2048x1024_1_1_0_0_n_n.contr.Idx) :
    (dot_S2048x1024_S1024x1024_S2048x1024_1_1_0_0_n_n.lhsIdx i q 1).val = (q ⟨0, by decide⟩).val :=
  dot_S2048x1024_S1024x1024_S2048x1024_1_1_0_0_n_n.lhsIdx_val_of_single rfl i q
theorem rhs_mm_0 (i : S2048x1024.Idx) (q : dot_S2048x1024_S1024x1024_S2048x1024_1_1_0_0_n_n.contr.Idx) :
    (dot_S2048x1024_S1024x1024_S2048x1024_1_1_0_0_n_n.rhsIdx i q 0).val = (i 1).val := by
  unfold DotDims.rhsIdx
  rw [dif_neg (show ¬(0 : Fin S1024x1024.rank) ∈ dot_S2048x1024_S1024x1024_S2048x1024_1_1_0_0_n_n.rhsBatch by decide), dif_pos (show (0 : Fin S1024x1024.rank) ∈ dot_S2048x1024_S1024x1024_S2048x1024_1_1_0_0_n_n.rhsNonContracting by decide)]
  rfl
theorem rhs_mm_1 (i : S2048x1024.Idx) (q : dot_S2048x1024_S1024x1024_S2048x1024_1_1_0_0_n_n.contr.Idx) :
    (dot_S2048x1024_S1024x1024_S2048x1024_1_1_0_0_n_n.rhsIdx i q 1).val = (q ⟨0, by decide⟩).val :=
  dot_S2048x1024_S1024x1024_S2048x1024_1_1_0_0_n_n.rhsIdx_val_of_single rfl i q

/-- The reset payload is zero everywhere. -/
theorem pay1_apply (j : S2048x1024.Idx) : k1_pay1 (F := Ideal) j = 0 := by
  unfold k1_pay1
  rw [shapeCast_self]
  exact Ideal.ofBits_zero_f32

/-- The accumulation payload at row p, column q: the accumulator's entry plus the products of row p of the left block and
    row q of the right block. -/
theorem pay2_apply (acc : Vec Ideal S2048x1024 .f32) (x : Vec Ideal S2048x1024 .bf16) (w : Vec Ideal S1024x1024 .bf16)
    (p : Fin 2048) (q : Fin 1024) :
    k1_pay2 (F := Ideal) acc x w (ix2 p q) = acc (ix2 p q) + ∑ kk : Fin 1024, x (ix2 p kk) * w (ix2 q kk) := by
  unfold k1_pay2
  rw [shapeCast_self, shapeCast_self, shapeCast_self, addf_apply]
  refine congrArg (acc (ix2 p q) + ·) ?_
  simp only [matmul]
  rw [Ideal.matmul_constant_zero_apply, ← Equiv.sum_comp (ValueIdx.contrEquiv1 dot_S2048x1024_S1024x1024_S2048x1024_1_1_0_0_n_n 1024 rfl rfl).symm]
  refine Finset.sum_congr rfl fun k _ => ?_
  have hk := ValueIdx.contrEquiv1_symm_val dot_S2048x1024_S1024x1024_S2048x1024_1_1_0_0_n_n 1024 rfl rfl k
  have el : dot_S2048x1024_S1024x1024_S2048x1024_1_1_0_0_n_n.lhsIdx (ix2 p q) ((ValueIdx.contrEquiv1 dot_S2048x1024_S1024x1024_S2048x1024_1_1_0_0_n_n 1024 rfl rfl).symm k) = ix2 p k := funext fun a => Fin.ext (by
    match a with
    | ⟨0, _⟩ => exact lhs_mm_0 _ _
    | ⟨1, _⟩ => exact (lhs_mm_1 _ _).trans hk)
  have er : dot_S2048x1024_S1024x1024_S2048x1024_1_1_0_0_n_n.rhsIdx (ix2 p q) ((ValueIdx.contrEquiv1 dot_S2048x1024_S1024x1024_S2048x1024_1_1_0_0_n_n 1024 rfl rfl).symm k) = ix2 q k := funext fun a => Fin.ext (by
    match a with
    | ⟨0, _⟩ => exact rhs_mm_0 _ _
    | ⟨1, _⟩ => exact (rhs_mm_1 _ _).trans hk)
  rw [el, er]

/-- The output payload at row p, column q: the accumulator's entry plus the bias row's entry at q. -/
theorem pay3_apply (acc : Vec Ideal S2048x1024 .f32) (b : Vec Ideal S1x1024 .f32) (p : Fin 2048) (q : Fin 1024) :
    k1_pay3 (F := Ideal) acc b (ix2 p q) = acc (ix2 p q) + b (ix2 (0 : Fin 1) q) := by
  unfold k1_pay3
  rw [shapeCast_self, addf_apply, broadcastTo_1b_ab_apply]

/-! ## The accumulator's step -/

theorem psum_zero (c : Dev nD) (m : Fin 8192) (o : Fin 11008) : psum V c 0 m o = 0 := rfl

theorem psum_succ (c : Dev nD) (k : Nat) (m : Fin 8192) (o : Fin 11008) :
    psum V c (k + 1) m o = psum V c k m o + chunk V c k m o := rfl

theorem psum_congr (c : Dev nD) {k k' : Nat} {m m' : Fin 8192} {o o' : Fin 11008} (hk : k = k') (hm : m.val = m'.val)
    (ho : o.val = o'.val) : psum V c k m o = psum V c k' m' o' := by
  subst hk; rw [Fin.ext hm, Fin.ext ho]

/-- A chunk below the fourth, without the reduction of its number. -/
theorem chunk_of_lt (c : Dev nD) (k : Nat) (hk : k < 4) (m : Fin 8192) (o : Fin 11008) :
    chunk V c k m o = ∑ kk : Fin 1024, xq V c (ix2 m (⟨k * 1024 + kk.val, by have := kk.isLt; omega⟩ : Fin 4096))
      * wq V c (ix2 o (⟨k * 1024 + kk.val, by have := kk.isLt; omega⟩ : Fin 4096)) := by
  unfold chunk
  refine Finset.sum_congr rfl fun kk _ => ?_
  have e : (⟨(k % 4) * 1024 + kk.val, by have := kk.isLt; have := Nat.mod_lt k (show 0 < 4 by decide); omega⟩ : Fin 4096)
      = ⟨k * 1024 + kk.val, by have := kk.isLt; omega⟩ := Fin.ext (by show (k % 4) * 1024 + kk.val = k * 1024 + kk.val; rw [Nat.mod_eq_of_lt hk])
  rw [e]

/-- The products of row p of the staged left block and row q of the staged right block, q a row inside the array: the
    chunk of the contraction at this step. -/
theorem dot_eq_chunk (c : Dev nD) (t : Fin cfg1.N) (d0 d1) (x : Vec Ideal S2048x1024 .bf16) (w : Vec Ideal S1024x1024 .bf16)
    (hx : x = filled V c 0 t d0) (hw : w = filled V c 1 t d1) (p : Fin 2048) (q : Fin 1024)
    (hq : ((t.val / 4) % 11) * 1024 + q.val < 11008) :
    ∑ kk : Fin 1024, x (ix2 p kk) * w (ix2 q kk)
      = chunk V c (t.val % 4) ⟨((t.val / 44) % 4) * 2048 + p.val, by have := p.isLt; omega⟩ ⟨((t.val / 4) % 11) * 1024 + q.val, hq⟩ := by
  subst hx hw
  rw [chunk_of_lt V c (t.val % 4) (Nat.mod_lt _ (by decide))]
  refine Finset.sum_congr rfl fun kk _ => ?_
  rw [filled0_apply, filled1_apply V c t d1 q kk hq]

/-- The scratch after point t, on the columns inside the array: one more chunk than before. -/
theorem accNext_apply (c : Dev nD) (t : Fin cfg1.N) (d0 d1) (acc : Vec Ideal S2048x1024 .f32) (h : AccOk V c t.castSucc acc)
    (p : Fin 2048) (q : Fin 1024) (hq : ((t.val / 4) % 11) * 1024 + q.val < 11008) :
    accNext (F := Ideal) (grid1.coords t) acc (filled V c 0 t d0) (filled V c 1 t d1) (ix2 p q)
      = psum V c (t.val % 4 + 1) ⟨((t.val / 44) % 4) * 2048 + p.val, by have := p.isLt; omega⟩ ⟨((t.val / 4) % 11) * 1024 + q.val, hq⟩ := by
  unfold accNext
  rw [pay2_apply, dot_eq_chunk V c t d0 d1 _ _ rfl rfl p q hq, psum_succ]
  refine congrArg (· + chunk V c (t.val % 4) _ _) ?_
  by_cases h0 : t.val % 4 = 0
  · rw [if_pos ((coord2 t).trans h0), pay1_apply, h0]; rfl
  · rw [if_neg (fun hh => h0 ((coord2 t).symm.trans hh))]
    exact h h0 p q hq

/-- One grid point keeps the accumulator's invariant: at the first step of a run the scratch is reset and receives chunk 0,
    later it receives the next chunk; on the columns inside the array the staged right operand is the array's rows, whatever
    fills the rest of the buffer. -/
theorem accOk_step (c : Dev nD) (t : Fin cfg1.N) (d0 d1) (acc : Vec Ideal S2048x1024 .f32) (h : AccOk V c t.castSucc acc) :
    AccOk V c t.succ (accNext (F := Ideal) (grid1.coords t) acc (filled V c 0 t d0) (filled V c 1 t d1)) := by
  intro hne p q hq
  have h4 : (t.val + 1) % 4 ≠ 0 := hne
  have hq1 : (((t.val + 1) / 4) % 11) * 1024 + q.val < 11008 := hq
  have hq' : ((t.val / 4) % 11) * 1024 + q.val < 11008 := by omega
  rw [accNext_apply V c t d0 d1 acc h p q hq']
  exact psum_congr V c (show t.val % 4 + 1 = (t.val + 1) % 4 by omega)
    (show ((t.val / 44) % 4) * 2048 + p.val = (((t.val + 1) / 44) % 4) * 2048 + p.val by omega)
    (show ((t.val / 4) % 11) * 1024 + q.val = (((t.val + 1) / 4) % 11) * 1024 + q.val by omega)

/-- At the last step of a run the stored block — the accumulator plus the bias row — is the result array's block, on the part
    inside the array. -/
theorem out_ok (c : Dev nD) (t : Fin cfg1.N) (h3 : t.val % 4 = 3) (d0 d1 d2) (acc : Vec Ideal S2048x1024 .f32)
    (h : AccOk V c t.castSucc acc) :
    (cfg1.win 3).cut (cfg1.grid.coords t)
        (k1_pay3 (F := Ideal) (accNext (F := Ideal) (grid1.coords t) acc (filled V c 0 t d0) (filled V c 1 t d1)) (filled V c 2 t d2))
      = (cfg1.win 3).cut (cfg1.grid.coords t) (Oout V c t) := by
  obtain ⟨-, -, -, -, -, -, e0, e1⟩ := idx_facts t
  obtain ⟨-, -, -, -, x0, x1⟩ := xsize_facts t
  funext y
  have hy0 : (y 0).val < win1_3.xsize (grid1.coords t) (0 : Fin 2) := (y 0).isLt
  have hy1 : (y 1).val < win1_3.xsize (grid1.coords t) (1 : Fin 2) := (y 1).isLt
  rw [x0] at hy0; rw [x1] at hy1
  have hq1 : (y 1).val < 1024 := by split at hy1 <;> omega
  have hq : ((t.val / 4) % 11) * 1024 + (y 1).val < 11008 := by split at hy1 <;> omega
  have exi : (cfg1.win 3).xinj (cfg1.grid.coords t) y = ix2 (⟨(y 0).val, hy0⟩ : Fin 2048) (⟨(y 1).val, hq1⟩ : Fin 1024) :=
    funext fun a => match a with | ⟨0, _⟩ => rfl | ⟨1, _⟩ => rfl
  have em0 : ((((cfg1.win 3).blk t).view.emb y) 0).val = ((t.val / 44) % 4) * 2048 + (y 0).val := by
    show win1_3.index t (0 : Fin 2) * 2048 + 1 * (y 0).val = _; rw [e0]; omega
  have em1 : ((((cfg1.win 3).blk t).view.emb y) 1).val = ((t.val / 4) % 11) * 1024 + (y 1).val := by
    show win1_3.index t (1 : Fin 2) * 1024 + 1 * (y 1).val = _; rw [e1]; omega
  show k1_pay3 (F := Ideal) _ _ ((cfg1.win 3).xinj (cfg1.grid.coords t) y) = Oout V c t ((cfg1.win 3).xinj (cfg1.grid.coords t) y)
  unfold Oout
  rw [Window.fill_xinj, exi, pay3_apply, accNext_apply V c t d0 d1 acc h _ _ hq, filled2_apply V c t d2 _ hq, View.read_apply]
  show _ = gemmOut V c (((cfg1.win 3).blk t).view.emb y)
  unfold gemmOut
  exact congrArg₂ (· + ·)
    (psum_congr V c (show t.val % 4 + 1 = 4 by omega) em0.symm em1.symm)
    (congrArg (bq V c) (funext fun a => Fin.ext (match a with | ⟨0, _⟩ => rfl | ⟨1, _⟩ => em1.symm)))

end Cert.KernelIdeal.Hand

end
-- ==== Proof.GemmFinal.lean ====
import proofs.«404523_j13640816132862_3_alg».proof.Proof.GemmValueDefs
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-! ## The output window's blocks in closed form -/

/-- The grid has 4 · 11 · 4 = 176 points. -/
theorem N1_eq : cfg1.N = 176 := by decide

/-- The output window's row block at point `t` is `t / 44`, -/
theorem index3_0 : ∀ t : Fin cfg1.N, (cfg1.win 3).index t 0 = t.val / 44 :=
  (by decide +kernel : ∀ t : Fin grid1.N, win1_3.index t 0 = t.val / 44)

/-- its column block `(t / 4) % 11`. -/
theorem index3_1 : ∀ t : Fin cfg1.N, (cfg1.win 3).index t 1 = (t.val / 4) % 11 :=
  (by decide +kernel : ∀ t : Fin grid1.N, win1_3.index t 1 = (t.val / 4) % 11)

/-- No row block is cut: 8192 = 4 · 2048. -/
theorem xsize3_0 : ∀ t : Fin cfg1.N, (cfg1.win 3).xsize (cfg1.grid.coords t) 0 = 2048 :=
  (by decide +kernel : ∀ t : Fin grid1.N, win1_3.xsize (grid1.coords t) 0 = 2048)

/-- The last column block is cut to its first 768 columns: 11008 = 10 · 1024 + 768. -/
theorem xsize3_1 : ∀ t : Fin cfg1.N, (cfg1.win 3).xsize (cfg1.grid.coords t) 1 = if (t.val / 4) % 11 = 10 then 768 else 1024 :=
  (by decide +kernel : ∀ t : Fin grid1.N, win1_3.xsize (grid1.coords t) 1 = if (t.val / 4) % 11 = 10 then 768 else 1024)

/-- An index of the result array lies in the block written back at point `t` iff its row is among the block's 2048 rows and
    its column among the block's columns inside the array. -/
theorem mem_blk3 (t : Fin cfg1.N) (i : S8192x11008.Idx) :
    i ∈ ((cfg1.win 3).blk t).view.set ↔
      (t.val / 44 * 2048 ≤ (i 0).val ∧ (i 0).val < t.val / 44 * 2048 + 2048) ∧
      ((t.val / 4) % 11 * 1024 ≤ (i 1).val ∧
        (i 1).val < (t.val / 4) % 11 * 1024 + (if (t.val / 4) % 11 = 10 then 768 else 1024)) := by
  show i ∈ ((View.whole main_v7).slice ((cfg1.win 3).rect t)).set ↔ _
  rw [View.set_slice_whole, Rect.mem_set_unit]
  have e0 := index3_0 t; have e1 := index3_1 t; have x0 := xsize3_0 t; have x1 := xsize3_1 t
  constructor
  · intro h
    have h0 := h 0; have h1 := h 1
    change (cfg1.win 3).index t 0 * 2048 ≤ (i 0).val ∧ (i 0).val < (cfg1.win 3).index t 0 * 2048 + (cfg1.win 3).xsize (cfg1.grid.coords t) 0 at h0
    change (cfg1.win 3).index t 1 * 1024 ≤ (i 1).val ∧ (i 1).val < (cfg1.win 3).index t 1 * 1024 + (cfg1.win 3).xsize (cfg1.grid.coords t) 1 at h1
    rw [e0, x0] at h0; rw [e1, x1] at h1
    exact ⟨h0, h1⟩
  · intro h a
    match a with
    | ⟨0, _⟩ =>
      change (cfg1.win 3).index t 0 * 2048 ≤ (i 0).val ∧ (i 0).val < (cfg1.win 3).index t 0 * 2048 + (cfg1.win 3).xsize (cfg1.grid.coords t) 0
      rw [e0, x0]; exact h.1
    | ⟨1, _⟩ =>
      change (cfg1.win 3).index t 1 * 1024 ≤ (i 1).val ∧ (i 1).val < (cfg1.win 3).index t 1 * 1024 + (cfg1.win 3).xsize (cfg1.grid.coords t) 1
      rw [e1, x1]; exact h.2

/-- What the write-back at a point writes is the block of `gemmOut` there: the output buffer was left holding that block,
    filled out past the array's end, and the write-back moves the part inside the array. -/
theorem flushed3 (c : Dev nD) (t : Fin cfg1.N) :
    (dat1 V (AccOk V c) (Oout V c) c).flushed 3 t = ((cfg1.win 3).blk t).view.read (Elt Ideal) (gemmOut V c) := by
  have ha : (dat1 V (AccOk V c) (Oout V c) c).after 3 t = Oout V c t := by dsimp only [dat1]
  show (cfg1.win 3).cut (cfg1.grid.coords t) ((dat1 V (AccOk V c) (Oout V c) c).after 3 t) = _
  rw [ha]
  unfold Oout
  exact (cfg1.win 3).cut_fill _ _ _

/-- After the 176 points the result array holds `gemmOut`: the 44 write-backs (one per row block and column block, at the last
    step of its run) each write the block of `gemmOut` inside the array, and those blocks cover it. -/
theorem final1 (c : Dev nD) : (dat1 V (AccOk V c) (Oout V c) c).arrAt 3 cfg1.N = gemmOut V c := by
  refine (dat1 V (AccOk V c) (Oout V c) c).arrAt_eq_of_cover 3 (gemmOut V c) (fun t _ => flushed3 V c t) ?_
  intro (i : S8192x11008.Idx)
  have h0 : (i 0).val < 8192 := (i 0).isLt
  have h1 : (i 1).val < 11008 := (i 1).isLt
  have hN := N1_eq
  obtain ⟨t, ht⟩ : ∃ t : Fin cfg1.N, t.val = (i 0).val / 2048 * 44 + (i 1).val / 1024 * 4 + 3 :=
    ⟨⟨(i 0).val / 2048 * 44 + (i 1).val / 1024 * 4 + 3, by omega⟩, rfl⟩
  refine ⟨t, (flush1_3 t).mpr (by omega), ?_⟩
  rw [mem_blk3]
  refine ⟨⟨?_, ?_⟩, ?_, ?_⟩
  · omega
  · omega
  · omega
  · split <;> omega

end Cert.KernelIdeal.Hand

end
-- ==== Proof.GemmBridge.lean ====
import proofs.«404523_j13640816132862_3_alg».proof.Proof.GemmValueDefs
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- One chunk of the contraction in terms of the layer's data: on row `a * 2048 + b` (token `b` of batch `a`) chunk `kb`
    is the sum, over the 1024 positions `kb * 1024 + k` of the nibble-major order, of the activation times the dequantized
    weight at the feature that position holds. The row splits back into `a` and `b` by division with remainder. -/
theorem chunk_is_features (c : Dev nD) (x : Cert.Spec.SX.Idx → EReal) (qw : Cert.Spec.SQ.Idx → BitVec 32)
    (sc ze : Cert.Spec.SG.Idx → EReal)
    (hx : ∀ (M : Fin 8192) (k' : Fin 4096), xq V c (ix2 M k')
      = x (ix3 ⟨M.val / 2048, by have := M.isLt; omega⟩ ⟨M.val % 2048, Nat.mod_lt _ (by decide)⟩
          ⟨(k'.val % 512) * 8 + k'.val / 512, by have := k'.isLt; omega⟩))
    (hw : ∀ (o : Fin 11008) (k' : Fin 4096), wq V c (ix2 o k')
      = Cert.Spec.weight qw sc ze o ⟨(k'.val % 512) * 8 + k'.val / 512, by have := k'.isLt; omega⟩)
    (kb : Nat) (hkb : kb < 4) (a : Fin 4) (b : Fin 2048) (o : Fin 11008) (hM : a.val * 2048 + b.val < 8192) :
    chunk V c kb ⟨a.val * 2048 + b.val, hM⟩ o
      = ∑ k : Fin 1024, (fun d : Fin 4096 => x (ix3 a b d) * Cert.Spec.weight qw sc ze o d)
          ⟨((kb * 1024 + k.val) % 512) * 8 + (kb * 1024 + k.val) / 512, by have := k.isLt; omega⟩ := by
  unfold chunk
  refine Finset.sum_congr rfl fun kk _ => ?_
  rw [hx, hw]
  have hkk : kk.val < 1024 := kk.isLt
  have ha : a.val < 4 := a.isLt
  have hb : b.val < 2048 := b.isLt
  have hmod : kb % 4 = kb := Nat.mod_eq_of_lt hkb
  -- Equal coordinates give equal terms.
  have key : ∀ (a' : Fin 4) (b' : Fin 2048) (d d' : Fin 4096), a' = a → b' = b → d = d' →
      x (ix3 a' b' d) * Cert.Spec.weight qw sc ze o d = x (ix3 a b d') * Cert.Spec.weight qw sc ze o d' := by
    rintro a' b' d d' rfl rfl rfl; rfl
  refine key _ _ _ _ (Fin.ext ?_) (Fin.ext ?_) (Fin.ext ?_)
  · dsimp only; omega
  · dsimp only; omega
  · dsimp only; rw [hmod]

/-- The accumulated chunks plus the bias row, on row `a * 2048 + b` and column `o`, are the layer's result there: the four
    chunks from zero are one sum over the 4096 features (`Cert.Spec.contraction_regrouped`), and the bias row holds the bias. -/
theorem psum_bias_is_result (c : Dev nD) (x : Cert.Spec.SX.Idx → EReal) (qw : Cert.Spec.SQ.Idx → BitVec 32)
    (sc ze : Cert.Spec.SG.Idx → EReal) (bias : Cert.Spec.SB.Idx → EReal)
    (hx : ∀ (M : Fin 8192) (k' : Fin 4096), xq V c (ix2 M k')
      = x (ix3 ⟨M.val / 2048, by have := M.isLt; omega⟩ ⟨M.val % 2048, Nat.mod_lt _ (by decide)⟩
          ⟨(k'.val % 512) * 8 + k'.val / 512, by have := k'.isLt; omega⟩))
    (hw : ∀ (o : Fin 11008) (k' : Fin 4096), wq V c (ix2 o k')
      = Cert.Spec.weight qw sc ze o ⟨(k'.val % 512) * 8 + k'.val / 512, by have := k'.isLt; omega⟩)
    (hb : ∀ o : Fin 11008, bq V c (ix2 (0 : Fin 1) o) = bias (ix1 o))
    (a : Fin 4) (b : Fin 2048) (o : Fin 11008) (hM : a.val * 2048 + b.val < 8192) :
    psum V c 4 ⟨a.val * 2048 + b.val, hM⟩ o + bq V c (ix2 (0 : Fin 1) o)
      = (∑ d : Fin 4096, x (ix3 a b d) * Cert.Spec.weight qw sc ze o d) + bias (ix1 o) := by
  have hpsum : psum V c 4 ⟨a.val * 2048 + b.val, hM⟩ o
      = (((0 + chunk V c 0 ⟨a.val * 2048 + b.val, hM⟩ o) + chunk V c 1 ⟨a.val * 2048 + b.val, hM⟩ o)
          + chunk V c 2 ⟨a.val * 2048 + b.val, hM⟩ o) + chunk V c 3 ⟨a.val * 2048 + b.val, hM⟩ o := rfl
  rw [hpsum, hb,
    chunk_is_features V c x qw sc ze hx hw 0 (by decide) a b o hM,
    chunk_is_features V c x qw sc ze hx hw 1 (by decide) a b o hM,
    chunk_is_features V c x qw sc ze hx hw 2 (by decide) a b o hM,
    chunk_is_features V c x qw sc ze hx hw 3 (by decide) a b o hM]
  exact congrArg (· + bias (ix1 o))
    (Cert.Spec.contraction_regrouped (fun d : Fin 4096 => x (ix3 a b d) * Cert.Spec.weight qw sc ze o d))

/-- The second call's result is the layer's result, GIVEN what its three operand arrays hold: the activations with the
    features in nibble-major order, the dequantized weights in the same order, the bias as a row. The four chunks of the
    contraction, accumulated from zero, are one sum over the 4096 features (`Cert.Spec.contraction_regrouped`). -/
theorem gemmOut_is_result (c : Dev nD) (x : Cert.Spec.SX.Idx → EReal) (qw : Cert.Spec.SQ.Idx → BitVec 32)
    (sc ze : Cert.Spec.SG.Idx → EReal) (bias : Cert.Spec.SB.Idx → EReal)
    (hx : ∀ (M : Fin 8192) (k' : Fin 4096), xq V c (ix2 M k')
      = x (ix3 ⟨M.val / 2048, by have := M.isLt; omega⟩ ⟨M.val % 2048, Nat.mod_lt _ (by decide)⟩
          ⟨(k'.val % 512) * 8 + k'.val / 512, by have := k'.isLt; omega⟩))
    (hw : ∀ (o : Fin 11008) (k' : Fin 4096), wq V c (ix2 o k')
      = Cert.Spec.weight qw sc ze o ⟨(k'.val % 512) * 8 + k'.val / 512, by have := k'.isLt; omega⟩)
    (hb : ∀ o : Fin 11008, bq V c (ix2 (0 : Fin 1) o) = bias (ix1 o))
    (i : Cert.Spec.SO.Idx) :
    gemmOut V c (ix2 ⟨(i 0).val * 2048 + (i 1).val, by have h0 : (i 0).val < 4 := (i 0).isLt; have h1 : (i 1).val < 2048 := (i 1).isLt; omega⟩
        ⟨(i 2).val, (i 2).isLt⟩)
      = Cert.Spec.result x qw sc ze bias i := by
  -- The result array at an index built from its two coordinates reads those coordinates back; the layer's result names
  -- batch, token and output feature by the same three numbers.
  have h0 : (i 0).val < 4 := (i 0).isLt
  have h1 : (i 1).val < 2048 := (i 1).isLt
  have h2 : (i 2).val < 11008 := (i 2).isLt
  exact psum_bias_is_result V c x qw sc ze bias hx hw hb ⟨(i 0).val, h0⟩ ⟨(i 1).val, h1⟩ ⟨(i 2).val, h2⟩ (by omega)

end Cert.KernelIdeal.Hand

end
-- ==== Proof.RefSpec.lean ====
import proofs.«404523_j13640816132862_3_alg».proof.Proof.Gen.ReferenceIdeal.Read
import proofs.«404523_j13640816132862_3_alg».proof.Proof.Spec

noncomputable section

namespace Cert.ReferenceIdeal.RefSpec

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx

/-- For a nibble position `s < 8` the shift amount `s * 4`, computed in 32-bit words, is the word of `4 s`. -/
theorem shift_word (s : Nat) (hs : s < 8) : IntOp.muli (BitVec.ofNat 32 s) 4#32 = BitVec.ofNat 32 (4 * s) := by
  interval_cases s <;> rfl

/-- The word of `4 s` is below the width, so the host's arithmetic shift is the plain one. -/
theorem shift_lt (s : Nat) (hs : s < 8) : (BitVec.ofNat 32 (4 * s)).toNat < 32 := by
  rw [BitVec.toNat_ofNat]; omega

/-- A word shifted right arithmetically by `s * 4` bits, masked to four bits and converted to a float is, at the extended
    reals, the specification's nibble `s` of the word. -/
theorem unpack_nib (q : BitVec 32) (s : Nat) (hs : s < 8) :
    FloatOps.sitofp (F := Ideal) .f32 (IntOp.andi (IntOp.shrsi .host q (IntOp.muli (BitVec.ofNat 32 s) 4#32)) 15#32)
      = Cert.Spec.nib q s := by
  rw [shift_word s hs]
  unfold IntOp.shrsi
  rw [if_pos (shift_lt s hs)]
  rfl

/-- Through the three reshapes and the two broadcasts, element `(o, d)` of the weight matrix reads packed word
    `(o, d / 8)`. -/
theorem idx_word (o : Fin 11008) (d : Fin 4096) :
    idx_main_v3 (idx_main_v5 (idx_main_v10 (idx_main_v12 (idx_main_v21 (ix2 o d)))))
      = ix2 o ⟨d.val / 8, by have := d.isLt; omega⟩ := by
  funext a
  apply Fin.ext
  have ho := o.isLt
  have hd := d.isLt
  match a with
  | ⟨0, _⟩ =>
    show ((((o.val * 4096 + d.val) / 4096 * 32 + (o.val * 4096 + d.val) / 128 % 32) * 128 + (o.val * 4096 + d.val) % 128) / 4096 * 4096
      + (((o.val * 4096 + d.val) / 4096 * 32 + (o.val * 4096 + d.val) / 128 % 32) * 128 + (o.val * 4096 + d.val) % 128) % 4096) / 4096 = o.val
    omega
  | ⟨1, _⟩ =>
    show ((((o.val * 4096 + d.val) / 4096 * 32 + (o.val * 4096 + d.val) / 128 % 32) * 128 + (o.val * 4096 + d.val) % 128) / 4096 * 4096
      + (((o.val * 4096 + d.val) / 4096 * 32 + (o.val * 4096 + d.val) / 128 % 32) * 128 + (o.val * 4096 + d.val) % 128) % 4096) / 8 % 512 = d.val / 8
    omega

/-- … and nibble position `d % 8` of that word. -/
theorem idx_pos (o : Fin 11008) (d : Fin 4096) :
    ((idx_main_v4 (idx_main_v6 (idx_main_v10 (idx_main_v12 (idx_main_v21 (ix2 o d)))))) 0).val = d.val % 8 := by
  have ho := o.isLt
  have hd := d.isLt
  show ((((o.val * 4096 + d.val) / 4096 * 32 + (o.val * 4096 + d.val) / 128 % 32) * 128 + (o.val * 4096 + d.val) % 128) / 4096 * 4096
      + (((o.val * 4096 + d.val) / 4096 * 32 + (o.val * 4096 + d.val) / 128 % 32) * 128 + (o.val * 4096 + d.val) % 128) % 4096) % 8 = d.val % 8
  omega

/-- Through the group reshape, the two broadcasts and the transpose, element `(o, d)` reads the zero point of group
    `d / 128` at output feature `o`. -/
theorem idx_zero (o : Fin 11008) (d : Fin 4096) :
    idx_main_v13 (idx_main_v14 (idx_main_v15 (idx_main_v21 (ix2 o d))))
      = ix2 ⟨d.val / 128, by have := d.isLt; omega⟩ o := by
  funext a
  apply Fin.ext
  have ho := o.isLt
  have hd := d.isLt
  match a with
  | ⟨0, _⟩ =>
    show (o.val * 4096 + d.val) / 128 % 32 = d.val / 128
    omega
  | ⟨1, _⟩ =>
    show (o.val * 4096 + d.val) / 4096 = o.val
    omega

/-- The same for the scale. -/
theorem idx_scale (o : Fin 11008) (d : Fin 4096) :
    idx_main_v17 (idx_main_v18 (idx_main_v19 (idx_main_v21 (ix2 o d))))
      = ix2 ⟨d.val / 128, by have := d.isLt; omega⟩ o := by
  funext a
  apply Fin.ext
  have ho := o.isLt
  have hd := d.isLt
  match a with
  | ⟨0, _⟩ =>
    show (o.val * 4096 + d.val) / 128 % 32 = d.val / 128
    omega
  | ⟨1, _⟩ =>
    show (o.val * 4096 + d.val) / 4096 = o.val
    omega

/-- The reference's dequantized matrix at `(o, d)` is the specification's weight. -/
theorem dequant_at (x1 : (⟨S11008x512, .i32⟩ : BufTy).Contents (Elt Ideal)) (x2 x3 : (⟨S32x11008, .f32⟩ : BufTy).Contents (Elt Ideal))
    (o : Fin 11008) (d : Fin 4096) :
    val_main_v21 (F := Ideal) x1 x2 x3 (ix2 o d) = Cert.Spec.weight x1 x2 x3 o d := by
  rw [val_main_v21_apply, val_main_v20_apply, val_main_v16_apply, val_main_v12_apply, val_main_v11_apply, val_main_v10_apply,
    val_main_v9_apply, val_main_v7_apply, val_main_v5_apply, val_main_v3_apply, val_main_v6_apply, val_main_v4_apply,
    val_main_v2_apply, val_main_v0_apply, val_main_v1_apply, val_main_c_apply, val_main_v8_apply, val_main_c_0_apply,
    val_main_v15_apply, val_main_v14_apply, val_main_v13_apply, val_main_v19_apply, val_main_v18_apply, val_main_v17_apply]
  rw [idx_word, idx_pos, idx_zero, idx_scale, unpack_nib _ _ (Nat.mod_lt _ (by decide))]
  rfl

/-- Read at the extended reals, the reference's last value is the layer's result: the unpacking by broadcast shifts and masks
    picks nibble `d % 8` of word `d / 8`, the group reshape pairs feature `d` with group `d / 128`, and the einsum is the dot
    product over the 4096 input features, the bias added last. -/
theorem ref_is_result (x0 : (⟨S4x2048x4096, .f32⟩ : BufTy).Contents (Elt Ideal)) (x1 : (⟨S11008x512, .i32⟩ : BufTy).Contents (Elt Ideal))
    (x2 x3 : (⟨S32x11008, .f32⟩ : BufTy).Contents (Elt Ideal)) (x4 : (⟨S11008, .f32⟩ : BufTy).Contents (Elt Ideal)) :
    val_main_v25 (F := Ideal) x0 x1 x2 x3 x4 = Cert.Spec.result x0 x1 x2 x3 x4 := by
  funext i
  rw [val_main_v25_apply, val_main_v22_apply, val_main_v24_apply, val_main_v23_apply, Ideal.addf_def]
  -- the token's features, the weight matrix's entry and the bias, each at the specification's index
  have ex : ∀ d : Fin 4096, lidx_main_v22 i d
      = ix3 (⟨(i 0).val, (i 0).isLt⟩ : Fin 4) (⟨(i 1).val, (i 1).isLt⟩ : Fin 2048) d := fun d =>
    funext fun a => Fin.ext (by match a with | ⟨0, _⟩ => rfl | ⟨1, _⟩ => rfl | ⟨2, _⟩ => rfl)
  have ew : ∀ d : Fin 4096, ridx_main_v22 i d = ix2 (⟨(i 2).val, (i 2).isLt⟩ : Fin 11008) d := fun d =>
    funext fun a => Fin.ext (by match a with | ⟨0, _⟩ => rfl | ⟨1, _⟩ => rfl)
  have eb : idx_main_v23 (idx_main_v24 i) = ix1 (⟨(i 2).val, (i 2).isLt⟩ : Fin 11008) :=
    funext fun a => Fin.ext (by match a with | ⟨0, _⟩ => rfl)
  rw [eb]
  unfold Cert.Spec.result
  refine congrArg (· + x4 (ix1 (⟨(i 2).val, (i 2).isLt⟩ : Fin 11008))) ?_
  refine Finset.sum_congr rfl fun d _ => ?_
  rw [ex d, ew d, dequant_at]

end Cert.ReferenceIdeal.RefSpec

end
-- ==== Proof.IdealClaims.lean ====
import proofs.«404523_j13640816132862_3_alg».proof.Defs
import proofs.«404523_j13640816132862_3_alg».proof.Proof.Gen.KernelIdeal
import proofs.«404523_j13640816132862_3_alg».proof.Proof.Gen.ReferenceIdeal
import proofs.«404523_j13640816132862_3_alg».proof.Proof.Gen.ReferenceIdeal.Run
import proofs.«404523_j13640816132862_3_alg».proof.Proof.Gen.ReferenceIdeal.Read
import proofs.«404523_j13640816132862_3_alg».proof.Proof.Gen.Pre_finite_inputs
import proofs.«404523_j13640816132862_3_alg».proof.Proof.RunAll
import proofs.«404523_j13640816132862_3_alg».proof.Proof.HostArgs
import proofs.«404523_j13640816132862_3_alg».proof.Proof.HostValues
import proofs.«404523_j13640816132862_3_alg».proof.Proof.GemmAcc
import proofs.«404523_j13640816132862_3_alg».proof.Proof.GemmFinal
import proofs.«404523_j13640816132862_3_alg».proof.Proof.GemmBridge
import proofs.«404523_j13640816132862_3_alg».proof.Proof.RefSpec

set_option maxRecDepth 16384

noncomputable section

namespace Cert.Proof.IdealClaims

open Cert.KernelIdeal Cert.KernelIdeal.Gen Cert.KernelIdeal.Hand
open Idealize.ShloMosaic Idealize.ShloMosaic.TcCoe Idealize.ShloMosaic.ValueIdx
open Idealize.SL.Sem

/-- An unscoped TensorCore reference is among those the run's last state reads. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

variable (m : (ℓ : Loc nD τ sig) → Buf (Elt Ideal) ℓ) (ρ : Dev nD → PrngReg)

/-- The idealized kernel's run over the extended reals, the accumulator's partial sums tracked and the second call's result
    read. -/
theorem ideal_run : θ_run (Cert.KernelIdeal.defs (F := Ideal)) (onTc (τ := τ) (Cert.KernelIdeal.main (F := Ideal))) ⟨m, fun _ => 0, ρ⟩
    (fun r => ∀ c : Dev nD, Final m (fun c => AccOk (V2 m) c) (fun c => Oout (V2 m) c) true c r.2) :=
  run_all m ρ (fun c => AccOk (V2 m) c) (fun c => Oout (V2 m) c) true
    (fun c t d0 d1 acc h => accOk_step (V2 m) c t d0 d1 acc h)
    (fun _ c t h3 d0 d1 d2 acc h => out_ok (V2 m) c t h3 d0 d1 d2 acc h)
    (fun c acc => accOk_zero (V2 m) c acc)

/-- The layer's result over the extended reals, of the launch memory's arguments. -/
def theResult (c : Dev nD) : Buf (Elt Ideal) ((c : Thread nD τ).loc main_v8) :=
  Cert.Spec.result (m ((c : Thread nD τ).loc main_arg0)) (m ((c : Thread nD τ).loc main_arg1)) (m ((c : Thread nD τ).loc main_arg2))
    (m ((c : Thread nD τ).loc main_arg3)) (m ((c : Thread nD τ).loc main_arg4))

/-- What the run leaves in the result buffer is the layer's result: the reshape of the second call's array, which is the four
    accumulated chunks plus the bias, over operands that are the permuted activations and the dequantized weights. -/
theorem final_result (c : Dev nD) (s : MemSt nD τ sig (Elt Ideal))
    (h : Final m (fun c => AccOk (V2 m) c) (fun c => Oout (V2 m) c) true c s) :
    s.mem ((c.tc : Thread nD τ).loc main_v8) = theResult m c := by
  obtain ⟨Fs, hK, hb⟩ := h
  refine (hb _ (mem_uc main_v8 (by decide))).trans ?_
  funext i
  have h3 : Fs 3 = gemmOut (V2 m) c :=
    (known_result m (fun c => AccOk (V2 m) c) (fun c => Oout (V2 m) c) true c rfl Fs hK).trans (final1 (V2 m) c)
  refine (W4_result m c Fs i).trans ?_
  rw [h3]
  exact gemmOut_is_result (V2 m) c _ _ _ _ _ (xq_entry m c) (wq_entry m c) (bq_entry m c) i

/-- The arguments end as launched. -/
theorem final_args (c : Dev nD) (s : MemSt nD τ sig (Elt Ideal))
    (h : Final m (fun c => AccOk (V2 m) c) (fun c => Oout (V2 m) c) true c s) :
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4) := by
  obtain ⟨Fs, hK, hb⟩ := h
  exact ⟨(hb _ (mem_uc main_arg0 (by decide))).trans (W4_main_arg0 m c Fs),
    (hb _ (mem_uc main_arg1 (by decide))).trans (W4_main_arg1 m c Fs),
    (hb _ (mem_uc main_arg2 (by decide))).trans (W4_main_arg2 m c Fs),
    (hb _ (mem_uc main_arg3 (by decide))).trans (W4_main_arg3 m c Fs),
    (hb _ (mem_uc main_arg4 (by decide))).trans (W4_main_arg4 m c Fs)⟩

end Cert.Proof.IdealClaims

end
-- ==== Proof.lean ====
/-
  A group-wise 4-bit quantized linear layer, proved equal over the extended reals to its plain reference.

  The kernel program runs two calls. The first unpacks the packed weights: each 32-bit word holds eight 4-bit values, and
  for nibble `s` of packed column `col` of output feature `o` it stores `(nibble - zero[g, o]) * scale[g, o]`, with group
  `g = col / 16`, at column `s * 512 + col` of a weight matrix `[11008, 4096]` — nibble-major, where the reference's order
  is `col * 8 + s`. The host reorders the activations' 4096 features the same way. The second call is a tiled matrix
  product: for each block of rows and of output features it adds four chunks of 1024 products into an accumulator that starts
  at zero, and at the last chunk stores the accumulator plus the bias. A dot product does not depend on a common reordering
  of its two factors' index, nor on the grouping of its terms, so over the extended reals — where every float operation
  is exact and a change of float format is the identity — the result is `Σ_d x[b, s, d] * w[o, d] + bias[o]`, which is what the
  reference computes by broadcasting shifts and masks, two reshapes and one contraction. The last column block of the second
  call overhangs its arrays (11008 = 10 * 1024 + 768): what the staging buffers hold past the arrays' end is unknown, but an
  output column reads only its own row of the weight block and its own bias, so the columns inside the array are exact and
  the others are never written back.

  The frames: every run terminates without a fault and leaves the arguments as launched. For the word-level program nothing
  is said of the result (the matrix unit's rounding of the unknown rows is not named), only that the arguments are kept.
-/
import proofs.«404523_j13640816132862_3_alg».proof.Defs
import proofs.«404523_j13640816132862_3_alg».proof.Proof.Gen.Kernel
import proofs.«404523_j13640816132862_3_alg».proof.Proof.Gen.KernelIdeal
import proofs.«404523_j13640816132862_3_alg».proof.Proof.Gen.ReferenceIdeal
import proofs.«404523_j13640816132862_3_alg».proof.Proof.Gen.ReferenceIdeal.Run
import proofs.«404523_j13640816132862_3_alg».proof.Proof.Gen.ReferenceIdeal.Read
import proofs.«404523_j13640816132862_3_alg».proof.Proof.Gen.Pre_finite_inputs
import proofs.«404523_j13640816132862_3_alg».proof.Proof.IdealClaims
import proofs.«404523_j13640816132862_3_alg».proof.Proof.KRunAll
import proofs.«404523_j13640816132862_3_alg».proof.Proof.KHostArgs
import Idealize.ShloMosaic.Adequacy
import Idealize.ShloMosaic.Init

noncomputable section

namespace Cert.Proof

open Idealize.ShloMosaic Idealize.ShloMosaic.TcCoe Idealize.SL.Sem

/-- An unscoped TensorCore reference of the word-level program is among those its run's last state reads. -/
theorem mem_uc_k (b : Ref Cert.Kernel.sig .tc) (h : ¬ (Proc.devRef .tc b : DevRef Cert.Kernel.τ Cert.Kernel.sig).isScoped) :
    Proc.devRef .tc b ∈ Pipeline.ucRefs Cert.Kernel.τ Cert.Kernel.sig :=
  Finset.mem_filter.mpr ⟨StableHlo.devRef_mem_tcRefs b, h⟩

/-- The word-level program runs and keeps its arguments: the same run as the idealized program's, with nothing tracked of the
    accumulator and the second call's result left unread. -/
theorem frame_k : Cert.frame_Kernel := fun m ρ _ => by
  have hrun := Cert.Kernel.Hand.run_all (F := Bits) m ρ (fun _ _ _ => True) (fun _ _ _ => (Scalar.ofBits (F := Bits) .f32 0#32 : Bits .f32)) false
    (fun _ _ _ _ _ _ => trivial) (fun h => absurd h (by decide)) (fun _ _ => trivial)
  refine (θ_run _ _ _).mono (fun r h c => ?_) hrun
  obtain ⟨Fs, hK, hb⟩ := h c
  exact ⟨(hb _ (mem_uc_k Cert.Kernel.main_arg0 (by decide))).trans (Cert.Kernel.Hand.W4_main_arg0 m c Fs),
    (hb _ (mem_uc_k Cert.Kernel.main_arg1 (by decide))).trans (Cert.Kernel.Hand.W4_main_arg1 m c Fs),
    (hb _ (mem_uc_k Cert.Kernel.main_arg2 (by decide))).trans (Cert.Kernel.Hand.W4_main_arg2 m c Fs),
    (hb _ (mem_uc_k Cert.Kernel.main_arg3 (by decide))).trans (Cert.Kernel.Hand.W4_main_arg3 m c Fs),
    (hb _ (mem_uc_k Cert.Kernel.main_arg4 (by decide))).trans (Cert.Kernel.Hand.W4_main_arg4 m c Fs)⟩

/-- The idealized program runs and keeps its arguments. -/
theorem frame_ki : Cert.frame_KernelIdeal := fun m ρ _ =>
  (θ_run _ _ _).mono (fun r h c => IdealClaims.final_args m c r.2 (h c)) (IdealClaims.ideal_run m ρ)

/-- The reference is host operations only: its run read back, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end at the layer's result of the arguments they agree on. -/
theorem algebraic : Cert.algebraic_KernelIdeal_ReferenceIdeal := by
  intro m ρ m' ρ' _ hagree
  refine ⟨fun c => IdealClaims.theResult m c, ?_, ?_⟩
  · exact (θ_run _ _ _).mono (fun r h c => ⟨IdealClaims.final_result m c r.2 (h c), IdealClaims.final_args m c r.2 (h c)⟩)
      (IdealClaims.ideal_run m ρ)
  · refine (θ_run Cert.ReferenceIdeal.defs _ _).mono (fun r h c => ⟨?_, (h c).2⟩) (Cert.ReferenceIdeal.Value.run (F := Ideal) m' ρ')
    rw [(h c).1, Cert.ReferenceIdeal.Read.val_main_v25_eq, Cert.ReferenceIdeal.RefSpec.ref_is_result, (hagree c).1, (hagree c).2.1,
      (hagree c).2.2.1, (hagree c).2.2.2.1, (hagree c).2.2.2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
